-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S3x8x64x2048 : Shape := ⟨4, ![3, 8, 64, 2048]⟩
abbrev S3x8x2048 : Shape := ⟨3, ![3, 8, 2048]⟩
abbrev S3x8 : Shape := ⟨2, ![3, 8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S3x8x64x2048 : S_.BroadcastsInDim S3x8x64x2048 (![] : Fin 0 → Fin S3x8x64x2048.rank)
  reducesTo_S3x8x64x2048_S_d0_1_2_3 : S3x8x64x2048.ReducesTo [0, 1, 2, 3] S_
  bcast_S_S3x8x2048 : S_.BroadcastsInDim S3x8x2048 (![] : Fin 0 → Fin S3x8x2048.rank)
  reducesTo_S3x8x2048_S_d0_1_2 : S3x8x2048.ReducesTo [0, 1, 2] S_
  bcast_S_S3x8 : S_.BroadcastsInDim S3x8 (![] : Fin 0 → Fin S3x8.rank)
  reducesTo_S3x8_S_d0_1 : S3x8.ReducesTo [0, 1] S_

variable [Facts]

def fn_part1 {F : FTy → Type} [FloatOps F] (main_arg4 : FVec F S3x8 .f32) (main_v13 : IVec S_ 1) (main_v16 : IVec S3x8x2048 1) : IVec S_ 1 :=
  let main_c_5 : IVec S_ 1 := constantI S_ 1 1#1
  let main_v17 : IVec S_ 1 := (fun x v => Host.reduce IntOp.andi x v reducesTo_S3x8x2048_S_d0_1_2 h_S_) main_v16 main_c_5
  let main_v18 : IVec S_ 1 := andi main_v13 main_v17
  let main_v19 : FVec F S3x8 .f32 := Host.absf main_arg4
  let main_cst_6 : FVec F S_ .f32 := constant S_ .f32 0x7F800000#32
  let main_v20 : FVec F S3x8 .f32 := broadcastInDim S3x8 ![] bcast_S_S3x8 main_cst_6
  let main_v21 : IVec S3x8 1 := cmpf .olt main_v19 main_v20
  let main_c_7 : IVec S_ 1 := constantI S_ 1 1#1
  let main_v22 : IVec S_ 1 := (fun x v => Host.reduce IntOp.andi x v reducesTo_S3x8_S_d0_1 h_S_) main_v21 main_c_7
  let main_v23 : IVec S_ 1 := andi main_v18 main_v22
  main_v23

def fn {F : FTy → Type} [FloatOps F] (main_arg0 : FVec F S16384x2048 .f32) (main_arg1 : FVec F S3x8x64x2048 .f32) (main_arg2 : FVec F S3x8x64x2048 .f32) (main_arg3 : FVec F S3x8x2048 .f32) (main_arg4 : FVec F S3x8 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S3x8x64x2048 .f32 := Host.absf main_arg1
  let main_cst_0 : FVec F S_ .f32 := constant S_ .f32 0x7F800000#32
  let main_v5 : FVec F S3x8x64x2048 .f32 := broadcastInDim S3x8x64x2048 ![] bcast_S_S3x8x64x2048 main_cst_0
  let main_v6 : IVec S3x8x64x2048 1 := cmpf .olt main_v4 main_v5
  let main_c_1 : IVec S_ 1 := constantI S_ 1 1#1
  let main_v7 : IVec S_ 1 := (fun x v => Host.reduce IntOp.andi x v reducesTo_S3x8x64x2048_S_d0_1_2_3 h_S_) main_v6 main_c_1
  let main_v8 : IVec S_ 1 := andi main_v3 main_v7
  let main_v9 : FVec F S3x8x64x2048 .f32 := Host.absf main_arg2
  let main_cst_2 : FVec F S_ .f32 := constant S_ .f32 0x7F800000#32
  let main_v10 : FVec F S3x8x64x2048 .f32 := broadcastInDim S3x8x64x2048 ![] bcast_S_S3x8x64x2048 main_cst_2
  let main_v11 : IVec S3x8x64x2048 1 := cmpf .olt main_v9 main_v10
  let main_c_3 : IVec S_ 1 := constantI S_ 1 1#1
  let main_v12 : IVec S_ 1 := (fun x v => Host.reduce IntOp.andi x v reducesTo_S3x8x64x2048_S_d0_1_2_3 h_S_) main_v11 main_c_3
  let main_v13 : IVec S_ 1 := andi main_v8 main_v12
  let main_v14 : FVec F S3x8x2048 .f32 := Host.absf main_arg3
  let main_cst_4 : FVec F S_ .f32 := constant S_ .f32 0x7F800000#32
  let main_v15 : FVec F S3x8x2048 .f32 := broadcastInDim S3x8x2048 ![] bcast_S_S3x8x2048 main_cst_4
  let main_v16 : IVec S3x8x2048 1 := cmpf .olt main_v14 main_v15
  fn_part1 (F := F) main_arg4 main_v13 main_v16
-- ==== Kernel.lean ====
abbrev S16384x2048 : Shape := ⟨2, ![16384, 2048]⟩
abbrev S3x8x64x2048 : Shape := ⟨4, ![3, 8, 64, 2048]⟩
abbrev S3x8x2048 : Shape := ⟨3, ![3, 8, 2048]⟩
abbrev S3x8 : Shape := ⟨2, ![3, 8]⟩
abbrev S3x512x2048 : Shape := ⟨3, ![3, 512, 2048]⟩
abbrev S3x2048x512 : Shape := ⟨3, ![3, 2048, 512]⟩
abbrev S3x2048x8 : Shape := ⟨3, ![3, 2048, 8]⟩
abbrev S512 : Shape := ⟨1, ![512]⟩
abbrev S_ : Shape := ⟨0, ![]⟩
abbrev S512x1 : Shape := ⟨2, ![512, 1]⟩
abbrev S8 : Shape := ⟨1, ![8]⟩
abbrev S1x8 : Shape := ⟨2, ![1, 8]⟩
abbrev S512x8 : Shape := ⟨2, ![512, 8]⟩
abbrev S256x2048 : Shape := ⟨2, ![256, 2048]⟩
abbrev S1x2048x8 : Shape := ⟨3, ![1, 2048, 8]⟩
abbrev S2048x8 : Shape := ⟨2, ![2048, 8]⟩
abbrev S256x8 : Shape := ⟨2, ![256, 8]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S256x512 : Shape := ⟨2, ![256, 512]⟩

abbrev nBuf : Space → Nat
  | .hbm => 40
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S3x8x64x2048, .f32⟩
  | .hbm, ⟨2, _⟩ => ⟨S3x8x64x2048, .f32⟩
  | .hbm, ⟨3, _⟩ => ⟨S3x8x2048, .f32⟩
  | .hbm, ⟨4, _⟩ => ⟨S3x8, .f32⟩
  | .hbm, ⟨5, _⟩ => ⟨S3x512x2048, .f32⟩
  | .hbm, ⟨6, _⟩ => ⟨S3x2048x512, .f32⟩
  | .hbm, ⟨7, _⟩ => ⟨S3x2048x512, .bf16⟩
  | .hbm, ⟨8, _⟩ => ⟨S3x512x2048, .f32⟩
  | .hbm, ⟨9, _⟩ => ⟨S3x2048x512, .f32⟩
  | .hbm, ⟨10, _⟩ => ⟨S3x2048x512, .bf16⟩
  | .hbm, ⟨11, _⟩ => ⟨S3x2048x8, .f32⟩
  | .hbm, ⟨12, _⟩ => ⟨S3x2048x8, .bf16⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S8, .i32⟩
  | .hbm, ⟨34, _⟩ => ⟨S1x8, .i32⟩
  | .hbm, ⟨35, _⟩ => ⟨S512x8, .i32⟩
  | .hbm, ⟨36, _⟩ => ⟨S512x8, .i32⟩
  | .hbm, ⟨37, _⟩ => ⟨S512x8, .i1⟩
  | .hbm, ⟨38, _⟩ => ⟨S512x8, .bf16⟩
  | .hbm, ⟨39, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S3x2048x512, .bf16⟩
  | .local _ .vmem, ⟨3, _⟩ => ⟨S3x2048x512, .bf16⟩
  | .local _ .vmem, ⟨4, _⟩ => ⟨S3x2048x8, .bf16⟩
  | .local _ .vmem, ⟨5, _⟩ => ⟨S3x8, .f32⟩
  | .local _ .vmem, ⟨6, _⟩ => ⟨S512x8, .bf16⟩
  | .local _ .vmem, ⟨7, _⟩ => ⟨S256x2048, .f32⟩
  | .local _ .vmem, ⟨8, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S3x8x64x2048_S3x512x2048 : S3x8x64x2048.ShapeCasts S3x512x2048
  transposes_S3x512x2048_S3x2048x512_0_2_1 : S3x512x2048.Transposes [0, 2, 1] S3x2048x512
  bitsLt_bf16_f32 : FTy.bits .bf16 < FTy.bits .f32
  transposes_S3x8x2048_S3x2048x8_0_2_1 : S3x8x2048.Transposes [0, 2, 1] S3x2048x8
  bcast_S_S512 : S_.BroadcastsInDim S512 (![] : Fin 0 → Fin S512.rank)
  bcast_S512_S512x1_0 : S512.BroadcastsInDim S512x1 (![0] : Fin 1 → Fin S512x1.rank)
  bcast_S8_S1x8_1 : S8.BroadcastsInDim S1x8 (![1] : Fin 1 → Fin S1x8.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  inb_S256x2048_S256x2048_0_0 : ∀ a, (![0, 0] : Fin 2 → Nat) a + S256x2048.size a ≤ S256x2048.size a
  h_S256x2048 : 0 < S256x2048.numel
  inb_S3x2048x8_S1x2048x8_0_0_0 : ∀ a, (![0, 0, 0] : Fin 3 → Nat) a + S1x2048x8.size a ≤ S3x2048x8.size a
  h_S1x2048x8 : 0 < S1x2048x8.numel
  shapeCasts_S1x2048x8_S2048x8 : S1x2048x8.ShapeCasts S2048x8
  inb_S3x8_S1x8_0_0 : ∀ a, (![0, 0] : Fin 2 → Nat) a + S1x8.size a ≤ S3x8.size a
  h_S1x8 : 0 < S1x8.numel
  shapeCasts_S1x8_S8 : S1x8.ShapeCasts S8
  shapeCasts_S8_S1x8 : S8.ShapeCasts S1x8
  broadcasts_S1x8_S256x8 : S1x8.Broadcasts S256x8
  reduces_S256x8_S256 : S256x8.Reduces [1] S256
  shapeCasts_S256_S256x1 : S256.ShapeCasts S256x1
  broadcasts_S256x1_S256x8 : S256x1.Broadcasts S256x8
  inb_S3x2048x512_S1x2048x512_0_0_0 : ∀ a, (![0, 0, 0] : Fin 3 → Nat) a + S1x2048x512.size a ≤ S3x2048x512.size a
  h_S1x2048x512 : 0 < S1x2048x512.numel
  shapeCasts_S1x2048x512_S2048x512 : S1x2048x512.ShapeCasts S2048x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  broadcasts_S256x1_S256x2048 : S256x1.Broadcasts S256x2048
  inb_S3x2048x8_S1x2048x8_1_0_0 : ∀ a, (![1, 0, 0] : Fin 3 → Nat) a + S1x2048x8.size a ≤ S3x2048x8.size a
  inb_S3x8_S1x8_1_0 : ∀ a, (![1, 0] : Fin 2 → Nat) a + S1x8.size a ≤ S3x8.size a
  inb_S3x2048x512_S1x2048x512_1_0_0 : ∀ a, (![1, 0, 0] : Fin 3 → Nat) a + S1x2048x512.size a ≤ S3x2048x512.size a
  inb_S3x2048x8_S1x2048x8_2_0_0 : ∀ a, (![2, 0, 0] : Fin 3 → Nat) a + S1x2048x8.size a ≤ S3x2048x8.size a
  inb_S3x8_S1x8_2_0 : ∀ a, (![2, 0] : Fin 2 → Nat) a + S1x8.size a ≤ S3x8.size a
  inb_S3x2048x512_S1x2048x512_2_0_0 : ∀ a, (![2, 0, 0] : Fin 3 → Nat) a + S1x2048x512.size a ≤ S3x2048x512.size a
  dot_S256x2048_S2048x8_S256x8_1_0_0_1_n_n_wf : DotDims.WF S256x2048 S2048x8 S256x8 [1] [0] [0] [1] [] []
  dot_S256x2048_S2048x512_S256x512_1_0_0_1_n_n_wf : DotDims.WF S256x2048 S2048x512 S256x512 [1] [0] [0] [1] [] []
  dot_S256x512_S512x8_S256x8_1_0_0_1_n_n_wf : DotDims.WF S256x512 S512x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x2048x512.size a ≤ S3x2048x512.size a
  hwx0_1 : ∀ i : grid0.Coords, EltTy.bits .bf16 = 32 ∨ (Rect.block (s := S3x2048x512) S3x2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x2048x512.size a ≤ S3x2048x512.size a
  hwx0_2 : ∀ i : grid0.Coords, EltTy.bits .bf16 = 32 ∨ (Rect.block (s := S3x2048x512) S3x2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2048x8.size a ≤ S3x2048x8.size a
  hwx0_3 : ∀ i : grid0.Coords, EltTy.bits .bf16 = 32 ∨ (Rect.block (s := S3x2048x8) S3x2048x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x8.size a ≤ S3x8.size a
  hwx0_4 : ∀ i : grid0.Coords, EltTy.bits .f32 = 32 ∨ (Rect.block (s := S3x8) S3x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x8.size a ≤ S512x8.size a
  hwx0_5 : ∀ i : grid0.Coords, EltTy.bits .bf16 = 32 ∨ (Rect.block (s := S512x8) S512x8.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x2048.size a
  hwx0_6 : ∀ i : grid0.Coords, EltTy.bits .f32 = 32 ∨ (Rect.block (s := S16384x2048) S256x2048.size (cc0_transform_6 i) (hinb0_6 i)).WholeWords (EltTy.packing .f32)

variable [Facts₀]

def dot_S256x2048_S2048x8_S256x8_1_0_0_1_n_n : DotDims S256x2048 S2048x8 S256x8 where
  lhsContracting := [1]
  rhsContracting := [0]
  lhsNonContracting := [0]
  rhsNonContracting := [1]
  lhsBatch := []
  rhsBatch := []
  wf := dot_S256x2048_S2048x8_S256x8_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x8_S256x8_1_0_0_1_n_n : DotDims S256x512 S512x8 S256x8 where
  lhsContracting := [1]
  rhsContracting := [0]
  lhsNonContracting := [0]
  rhsNonContracting := [1]
  lhsBatch := []
  rhsBatch := []
  wf := dot_S256x512_S512x8_S256x8_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3x2048x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S3x8x64x2048 : Shape := ⟨4, ![3, 8, 64, 2048]⟩
abbrev S3x8x2048 : Shape := ⟨3, ![3, 8, 2048]⟩
abbrev S3x8 : Shape := ⟨2, ![3, 8]⟩
abbrev S1x8x2048 : Shape := ⟨3, ![1, 8, 2048]⟩
abbrev S8x2048 : Shape := ⟨2, ![8, 2048]⟩
abbrev S16384x8 : Shape := ⟨2, ![16384, 8]⟩
abbrev S1x8 : Shape := ⟨2, ![1, 8]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8x64x2048 : Shape := ⟨4, ![1, 8, 64, 2048]⟩
abbrev S8x64x2048 : Shape := ⟨3, ![8, 64, 2048]⟩
abbrev S16384x8x64 : Shape := ⟨3, ![16384, 8, 64]⟩

abbrev nBuf : Space → Nat
  | .hbm => 119
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S3x8x64x2048, .f32⟩
  | .hbm, ⟨2, _⟩ => ⟨S3x8x64x2048, .f32⟩
  | .hbm, ⟨3, _⟩ => ⟨S3x8x2048, .f32⟩
  | .hbm, ⟨4, _⟩ => ⟨S3x8, .f32⟩
  | .hbm, ⟨5, _⟩ => ⟨S1x8x2048, .f32⟩
  | .hbm, ⟨6, _⟩ => ⟨S8x2048, .f32⟩
  | .hbm, ⟨7, _⟩ => ⟨S16384x8, .f32⟩
  | .hbm, ⟨8, _⟩ => ⟨S1x8, .f32⟩
  | .hbm, ⟨9, _⟩ => ⟨S8, .f32⟩
  | .hbm, ⟨10, _⟩ => ⟨S1x8, .f32⟩
  | .hbm, ⟨11, _⟩ => ⟨S16384x8, .f32⟩
  | .hbm, ⟨12, _⟩ => ⟨S16384x8, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384x1, .f32⟩
  | .hbm, ⟨19, _⟩ => ⟨S16384x8, .f32⟩
  | .hbm, ⟨20, _⟩ => ⟨S16384x8, .f32⟩
  | .hbm, ⟨21, _⟩ => ⟨S16384x8, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x8, .f32⟩
  | .hbm, ⟨26, _⟩ => ⟨S16384x8, .f32⟩
  | .hbm, ⟨27, _⟩ => ⟨S1x8x64x2048, .f32⟩
  | .hbm, ⟨28, _⟩ => ⟨S8x64x2048, .f32⟩
  | .hbm, ⟨29, _⟩ => ⟨S16384x8x64, .f32⟩
  | .hbm, ⟨30, _⟩ => ⟨S1x8x64x2048, .f32⟩
  | .hbm, ⟨31, _⟩ => ⟨S8x64x2048, .f32⟩
  | .hbm, ⟨32, _⟩ => ⟨S16384x8x64, .f32⟩
  | .hbm, ⟨33, _⟩ => ⟨S16384x8x64, .f32⟩
  | .hbm, ⟨34, _⟩ => ⟨S_, .f32⟩
  | .hbm, ⟨35, _⟩ => ⟨S16384x8, .f32⟩
  | .hbm, ⟨36, _⟩ => ⟨S16384x8, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S1x8x2048, .f32⟩
  | .hbm, ⟨44, _⟩ => ⟨S8x2048, .f32⟩
  | .hbm, ⟨45, _⟩ => ⟨S16384x8, .f32⟩
  | .hbm, ⟨46, _⟩ => ⟨S1x8, .f32⟩
  | .hbm, ⟨47, _⟩ => ⟨S8, .f32⟩
  | .hbm, ⟨48, _⟩ => ⟨S1x8, .f32⟩
  | .hbm, ⟨49, _⟩ => ⟨S16384x8, .f32⟩
  | .hbm, ⟨50, _⟩ => ⟨S16384x8, .f32⟩
  | .hbm, ⟨51, _⟩ => ⟨S_, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384x1, .f32⟩
  | .hbm, ⟨57, _⟩ => ⟨S16384x8, .f32⟩
  | .hbm, ⟨58, _⟩ => ⟨S16384x8, .f32⟩
  | .hbm, ⟨59, _⟩ => ⟨S16384x8, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x8, .f32⟩
  | .hbm, ⟨64, _⟩ => ⟨S16384x8, .f32⟩
  | .hbm, ⟨65, _⟩ => ⟨S1x8x64x2048, .f32⟩
  | .hbm, ⟨66, _⟩ => ⟨S8x64x2048, .f32⟩
  | .hbm, ⟨67, _⟩ => ⟨S16384x8x64, .f32⟩
  | .hbm, ⟨68, _⟩ => ⟨S1x8x64x2048, .f32⟩
  | .hbm, ⟨69, _⟩ => ⟨S8x64x2048, .f32⟩
  | .hbm, ⟨70, _⟩ => ⟨S16384x8x64, .f32⟩
  | .hbm, ⟨71, _⟩ => ⟨S16384x8x64, .f32⟩
  | .hbm, ⟨72, _⟩ => ⟨S_, .f32⟩
  | .hbm, ⟨73, _⟩ => ⟨S16384x8, .f32⟩
  | .hbm, ⟨74, _⟩ => ⟨S16384x8, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S16384x2048, .f32⟩
  | .hbm, ⟨79, _⟩ => ⟨S16384x2048, .f32⟩
  | .hbm, ⟨80, _⟩ => ⟨S16384x2048, .f32⟩
  | .hbm, ⟨81, _⟩ => ⟨S1x8x2048, .f32⟩
  | .hbm, ⟨82, _⟩ => ⟨S8x2048, .f32⟩
  | .hbm, ⟨83, _⟩ => ⟨S16384x8, .f32⟩
  | .hbm, ⟨84, _⟩ => ⟨S1x8, .f32⟩
  | .hbm, ⟨85, _⟩ => ⟨S8, .f32⟩
  | .hbm, ⟨86, _⟩ => ⟨S1x8, .f32⟩
  | .hbm, ⟨87, _⟩ => ⟨S16384x8, .f32⟩
  | .hbm, ⟨88, _⟩ => ⟨S16384x8, .f32⟩
  | .hbm, ⟨89, _⟩ => ⟨S_, .f32⟩
  | .hbm, ⟨90, _⟩ => ⟨S16384, .f32⟩
  | .hbm, ⟨91, _⟩ => ⟨S_, .f32⟩
  | .hbm, ⟨92, _⟩ => ⟨S16384, .f32⟩
  | .hbm, ⟨93, _⟩ => ⟨S16384, .f32⟩
  | .hbm, ⟨94, _⟩ => ⟨S16384x1, .f32⟩
  | .hbm, ⟨95, _⟩ => ⟨S16384x8, .f32⟩
  | .hbm, ⟨96, _⟩ => ⟨S16384x8, .f32⟩
  | .hbm, ⟨97, _⟩ => ⟨S16384x8, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x8, .f32⟩
  | .hbm, ⟨102, _⟩ => ⟨S16384x8, .f32⟩
  | .hbm, ⟨103, _⟩ => ⟨S1x8x64x2048, .f32⟩
  | .hbm, ⟨104, _⟩ => ⟨S8x64x2048, .f32⟩
  | .hbm, ⟨105, _⟩ => ⟨S16384x8x64, .f32⟩
  | .hbm, ⟨106, _⟩ => ⟨S1x8x64x2048, .f32⟩
  | .hbm, ⟨107, _⟩ => ⟨S8x64x2048, .f32⟩
  | .hbm, ⟨108, _⟩ => ⟨S16384x8x64, .f32⟩
  | .hbm, ⟨109, _⟩ => ⟨S16384x8x64, .f32⟩
  | .hbm, ⟨110, _⟩ => ⟨S_, .f32⟩
  | .hbm, ⟨111, _⟩ => ⟨S16384x8, .f32⟩
  | .hbm, ⟨112, _⟩ => ⟨S16384x8, .f32⟩
  | .hbm, ⟨113, _⟩ => ⟨S_, .f32⟩
  | .hbm, ⟨114, _⟩ => ⟨S16384, .f32⟩
  | .hbm, ⟨115, _⟩ => ⟨S16384x1, .f32⟩
  | .hbm, ⟨116, _⟩ => ⟨S16384x2048, .f32⟩
  | .hbm, ⟨117, _⟩ => ⟨S16384x2048, .f32⟩
  | .hbm, ⟨118, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_9 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_12 : Ref sig .tc := ⟨.hbm, 110, rfl⟩
abbrev main_v92 : Ref sig .tc := ⟨.hbm, 111, rfl⟩
abbrev main_v93 : Ref sig .tc := ⟨.hbm, 112, rfl⟩
abbrev main_cst_13 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩

abbrev nD : Nat := 1
abbrev τ : Topo := Topo.v7x

variable {F : FTy → Type} [FloatOps F]

class Facts₀ : Prop where
  slices_S3x8x2048_S1x8x2048_0_0_0 : S3x8x2048.Slices ![0, 0, 0] S1x8x2048
  shapeCasts_S1x8x2048_S8x2048 : S1x8x2048.ShapeCasts S8x2048
  slices_S3x8_S1x8_0_0 : S3x8.Slices ![0, 0] S1x8
  shapeCasts_S1x8_S8 : S1x8.ShapeCasts S8
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  reducesTo_S16384x8_S16384_d1 : S16384x8.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8_0_1 : S16384x1.BroadcastsInDim S16384x8 (![0, 1] : Fin 2 → Fin S16384x8.rank)
  slices_S3x8x64x2048_S1x8x64x2048_0_0_0_0 : S3x8x64x2048.Slices ![0, 0, 0, 0] S1x8x64x2048
  shapeCasts_S1x8x64x2048_S8x64x2048 : S1x8x64x2048.ShapeCasts S8x64x2048
  reducesTo_S16384x8x64_S16384x8_d2 : S16384x8x64.ReducesTo [2] S16384x8
  bcast_S16384x1_S16384x2048_0_1 : S16384x1.BroadcastsInDim S16384x2048 (![0, 1] : Fin 2 → Fin S16384x2048.rank)
  slices_S3x8x2048_S1x8x2048_1_0_0 : S3x8x2048.Slices ![1, 0, 0] S1x8x2048
  slices_S3x8_S1x8_1_0 : S3x8.Slices ![1, 0] S1x8
  slices_S3x8x64x2048_S1x8x64x2048_1_0_0_0 : S3x8x64x2048.Slices ![1, 0, 0, 0] S1x8x64x2048
  slices_S3x8x2048_S1x8x2048_2_0_0 : S3x8x2048.Slices ![2, 0, 0] S1x8x2048
  slices_S3x8_S1x8_2_0 : S3x8.Slices ![2, 0] S1x8
  slices_S3x8x64x2048_S1x8x64x2048_2_0_0_0 : S3x8x64x2048.Slices ![2, 0, 0, 0] S1x8x64x2048
  dot_S16384x2048_S8x2048_S16384x8_1_1_0_0_n_n_wf : DotDims.WF S16384x2048 S8x2048 S16384x8 [1] [1] [0] [0] [] []
  dot_S16384x2048_S8x64x2048_S16384x8x64_1_2_0_01_n_n_wf : DotDims.WF S16384x2048 S8x64x2048 S16384x8x64 [1] [2] [0] [0, 1] [] []

variable [Facts₀]

def dot_S16384x2048_S8x2048_S16384x8_1_1_0_0_n_n : DotDims S16384x2048 S8x2048 S16384x8 where
  lhsContracting := [1]
  rhsContracting := [1]
  lhsNonContracting := [0]
  rhsNonContracting := [0]
  lhsBatch := []
  rhsBatch := []
  wf := dot_S16384x2048_S8x2048_S16384x8_1_1_0_0_n_n_wf
def dot_S16384x2048_S8x64x2048_S16384x8x64_1_2_0_01_n_n : DotDims S16384x2048 S8x64x2048 S16384x8x64 where
  lhsContracting := [1]
  rhsContracting := [2]
  lhsNonContracting := [0]
  rhsNonContracting := [0, 1]
  lhsBatch := []
  rhsBatch := []
  wf := dot_S16384x2048_S8x64x2048_S16384x8x64_1_2_0_01_n_n_wf

class Facts : Prop extends Facts₀ where

variable [Facts]
-- ==== Proof.Spec.lean ====
/-
  The mathematics both programs compute, stated row by row, free of any tiling or layout.

  One input row `x0 : Fin 2048 → EReal` goes through three layers.  A layer with gate weights
  `wg e d`, gate bias `bg e` and low-rank factors `u e r d`, `v e r d` sends the current row `xi` to
  `xi + x0 · xw`, where the scalar `xw = ∑ e, (∑ r, (xi · u e r) * (xi · v e r)) * softmax(logits) e`
  and `logits e = xi · wg e + bg e`.  Nothing in a layer mixes two rows, so the whole [16384, 2048]
  result is the row function applied to each row of the input.
-/
import Idealize.ShloMosaic.PureOps.Ideal
import Idealize.ShloMosaic.PureOps.Ideal.Laws

noncomputable section

namespace Cert.CrossMix

open Idealize.ShloMosaic

/-- The value the bit pattern of f32's `-∞` denotes: where both programs start a row maximum. -/
abbrev negInf : EReal := Ideal.ofBits .f32 0xFF800000#32

/-- The softmax of eight logits as both programs compute it: subtract the maximum (taken from `-∞`, and once more
    against `-∞`), exponentiate, divide by the sum. -/
def gateRow (logit : Fin 8 → EReal) : Fin 8 → EReal :=
  fun e => Ideal.div
    (Ideal.exp (logit e - max negInf ((Finset.univ : Finset (Fin 8)).fold max negInf logit)))
    (∑ e' : Fin 8, Ideal.exp (logit e' - max negInf ((Finset.univ : Finset (Fin 8)).fold max negInf logit)))

/-- A layer's scalar for one row: the gated sum over the eight experts of the rank-64 bilinear forms. -/
def xwRow (wg : Fin 8 → Fin 2048 → EReal) (bg : Fin 8 → EReal) (u v : Fin 8 → Fin 64 → Fin 2048 → EReal)
    (xi : Fin 2048 → EReal) : EReal :=
  ∑ e : Fin 8, (∑ r : Fin 64, (∑ d : Fin 2048, xi d * u e r d) * (∑ d : Fin 2048, xi d * v e r d))
    * gateRow (fun e' => (∑ d : Fin 2048, xi d * wg e' d) + bg e') e

/-- One layer on one row: the residual update `xi + x0 · xw`. -/
def stepRow (wg : Fin 8 → Fin 2048 → EReal) (bg : Fin 8 → EReal) (u v : Fin 8 → Fin 64 → Fin 2048 → EReal)
    (x0 xi : Fin 2048 → EReal) : Fin 2048 → EReal :=
  fun d => xi d + x0 d * xwRow wg bg u v xi

/-- The three layers on one row. -/
def rows3 (U V : Fin 3 → Fin 8 → Fin 64 → Fin 2048 → EReal) (Wg : Fin 3 → Fin 8 → Fin 2048 → EReal)
    (bg : Fin 3 → Fin 8 → EReal) (x0 : Fin 2048 → EReal) : Fin 2048 → EReal :=
  stepRow (Wg 2) (bg 2) (U 2) (V 2) x0
    (stepRow (Wg 1) (bg 1) (U 1) (V 1) x0
      (stepRow (Wg 0) (bg 0) (U 0) (V 0) x0 x0))

/-- Column `64 e + r` of the 512: the `r`-th of expert `e`'s group of 64. -/
abbrev col (e : Fin 8) (r : Fin 64) : Fin 512 := ⟨64 * e.val + r.val, by have := e.isLt; have := r.isLt; omega⟩

end Cert.CrossMix

end
-- ==== Proof.SpecArr.lean ====
/-
  The specification over whole arrays: entry (b, d) of the [16384, 2048] result is entry d of the three layers applied to
  row b of the input, with the weights read at their natural indices (l, e, r, d), (l, e, d) and (l, e).
-/
import proofs.«114899_j29583734734870_1_alg».proof.Proof.Spec
import Idealize.ShloMosaic.Lib.ValueIdx

noncomputable section

namespace Cert.CrossMix

open Idealize.ShloMosaic Idealize.ShloMosaic.ValueIdx

/-- The result array as one function of the five argument arrays. -/
def G (a0 : (⟨2, ![16384, 2048]⟩ : Shape).Idx → EReal) (a1 a2 : (⟨4, ![3, 8, 64, 2048]⟩ : Shape).Idx → EReal)
    (a3 : (⟨3, ![3, 8, 2048]⟩ : Shape).Idx → EReal) (a4 : (⟨2, ![3, 8]⟩ : Shape).Idx → EReal) :
    (⟨2, ![16384, 2048]⟩ : Shape).Idx → EReal :=
  fun i => rows3 (fun l e r d => a1 (ix4 l e r d)) (fun l e r d => a2 (ix4 l e r d)) (fun l e d => a3 (ix3 l e d))
    (fun l e => a4 (ix2 l e)) (fun d => a0 (ix2 (i 0) d)) (i 1)

theorem G_apply (a0 : (⟨2, ![16384, 2048]⟩ : Shape).Idx → EReal) (a1 a2 : (⟨4, ![3, 8, 64, 2048]⟩ : Shape).Idx → EReal)
    (a3 : (⟨3, ![3, 8, 2048]⟩ : Shape).Idx → EReal) (a4 : (⟨2, ![3, 8]⟩ : Shape).Idx → EReal) (b : Fin 16384) (d : Fin 2048) :
    G a0 a1 a2 a3 a4 (ix2 b d)
      = rows3 (fun l e r d => a1 (ix4 l e r d)) (fun l e r d => a2 (ix4 l e r d)) (fun l e d => a3 (ix3 l e d))
          (fun l e => a4 (ix2 l e)) (fun d => a0 (ix2 b d)) d := rfl

end Cert.CrossMix

end
-- ==== Proof.KerDefs.lean ====
/-
  One layer of the kernel body on a 256-row block, named once.

  The body's three layers are the same term over different loaded slices.  Here that term is named
  (`kerLogits`, `kerGate`, `kerExpert`, `kerXW`, `spread`), and each payload of the body is shown to be that term
  at its layer's loads (by unfolding).
-/
import proofs.«114899_j29583734734870_1_alg».proof.Proof.Gen.KernelIdeal.Skeleton
import proofs.«114899_j29583734734870_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Facts₀ Idealize.ShloMosaic Idealize.ShloMosaic.ValueIdx Cert.CrossMix

/-- The gate logits of a block: rows times the [2048, 8] gate weights, plus the bias row. -/
def kerLogits (x : FVec Ideal S256x2048 .f32) (w : Vec Ideal S1x2048x8 .bf16) (b : Vec Ideal S1x8 .f32) : FVec Ideal S256x8 .f32 :=
  have v1 : FVec Ideal S256x2048 .bf16 := truncf .bf16 x bitsLt_bf16_f32
  have v3 : FVec Ideal S2048x8 .bf16 := shapeCast S2048x8 w shapeCasts_S1x2048x8_S2048x8
  have cst : FVec Ideal S256x8 .f32 := constant S256x8 .f32 0x00000000#32
  have v4 : FVec Ideal S256x8 .f32 := matmul dot_S256x2048_S2048x8_S256x8_1_0_0_1_n_n none v1 v3 cst
  have v6 : FVec Ideal S8 .f32 := shapeCast S8 b shapeCasts_S1x8_S8
  have v7 : FVec Ideal S1x8 .f32 := shapeCast S1x8 v6 shapeCasts_S8_S1x8
  have v8 : FVec Ideal S256x8 .f32 := broadcastTo S256x8 v7 broadcasts_S1x8_S256x8
  addf v4 v8

/-- The row-wise softmax of a block of logits. -/
def kerGate (v9 : FVec Ideal S256x8 .f32) : FVec Ideal S256x8 .f32 :=
  have v10 : FVec Ideal S256 .f32 := multiReduction .maximumf [1] S256 v9 0xFF800000#32 reduces_S256x8_S256 (.inl rfl) rfl
  have cst_7 : Ideal .f32 := Scalar.ofBits .f32 0xFF800000#32
  have v11 : FVec Ideal S256 .f32 := broadcast S256 cst_7
  have v12 : FVec Ideal S256 .f32 := maximumf v11 v10
  have v13 : FVec Ideal S256x1 .f32 := shapeCast S256x1 v12 shapeCasts_S256_S256x1
  have v14 : FVec Ideal S256x8 .f32 := broadcastTo S256x8 v13 broadcasts_S256x1_S256x8
  have v15 : FVec Ideal S256x8 .f32 := subf v9 v14
  have v16 : FVec Ideal S256x8 .f32 := exp v15
  have v17 : FVec Ideal S256 .f32 := multiReduction .add [1] S256 v16 0x00000000#32 reduces_S256x8_S256 (.inl rfl) rfl
  have v18 : FVec Ideal S256x1 .f32 := shapeCast S256x1 v17 shapeCasts_S256_S256x1
  have v19 : FVec Ideal S256x8 .f32 := broadcastTo S256x8 v18 broadcasts_S256x1_S256x8
  divf v16 v19

/-- The experts' bilinear forms of a block: the two [2048, 512] products multiplied entrywise, then summed in groups
    by the product with the [512, 8] operand `s`. -/
def kerExpert (x : FVec Ideal S256x2048 .f32) (u v : Vec Ideal S1x2048x512 .bf16) (s : Vec Ideal S512x8 .bf16) : FVec Ideal S256x8 .f32 :=
  have v1 : FVec Ideal S256x2048 .bf16 := truncf .bf16 x bitsLt_bf16_f32
  have v22 : FVec Ideal S2048x512 .bf16 := shapeCast S2048x512 u shapeCasts_S1x2048x512_S2048x512
  have v24 : FVec Ideal S2048x512 .bf16 := shapeCast S2048x512 v shapeCasts_S1x2048x512_S2048x512
  have cst_15 : FVec Ideal S256x512 .f32 := constant S256x512 .f32 0x00000000#32
  have v25 : FVec Ideal S256x512 .f32 := matmul dot_S256x2048_S2048x512_S256x512_1_0_0_1_n_n none v1 v22 cst_15
  have cst_16 : FVec Ideal S256x512 .f32 := constant S256x512 .f32 0x00000000#32
  have v26 : FVec Ideal S256x512 .f32 := matmul dot_S256x2048_S2048x512_S256x512_1_0_0_1_n_n none v1 v24 cst_16
  have v27 : FVec Ideal S256x512 .f32 := mulf v25 v26
  have v28 : FVec Ideal S256x512 .bf16 := truncf .bf16 v27 bitsLt_bf16_f32
  have v30 : FVec Ideal S512x8 .bf16 := shapeCast S512x8 s shapeCasts_S512x8_S512x8
  have cst_19 : FVec Ideal S256x8 .f32 := constant S256x8 .f32 0x00000000#32
  matmul dot_S256x512_S512x8_S256x8_1_0_0_1_n_n none v28 v30 cst_19

/-- The layer's scalar per row of a block: experts times gate, summed over the eight experts. -/
def kerXW (x : FVec Ideal S256x2048 .f32) (w : Vec Ideal S1x2048x8 .bf16) (b : Vec Ideal S1x8 .f32)
    (u v : Vec Ideal S1x2048x512 .bf16) (s : Vec Ideal S512x8 .bf16) : FVec Ideal S256 .f32 :=
  multiReduction .add [1] S256 (mulf (kerExpert x u v s) (kerGate (kerLogits x w b))) 0x00000000#32 reduces_S256x8_S256 (.inl rfl) rfl

/-- A per-row scalar spread over the 2048 columns (cast to a column, broadcast along the row). -/
def spread (y : FVec Ideal S256 .f32) : FVec Ideal S256x2048 .f32 :=
  broadcastTo S256x2048 (shapeCast S256x1 y shapeCasts_S256_S256x1) broadcasts_S256x1_S256x2048

/-! ## The body's three payloads are this term at their layer's loads -/

theorem pay1_eq (v0 : Vec Ideal S256x2048 .f32) (v2 : Vec Ideal S1x2048x8 .bf16) (v5 : Vec Ideal S1x8 .f32)
    (v21 v23 : Vec Ideal S1x2048x512 .bf16) (v29 : Vec Ideal S512x8 .bf16) :
    Gen.k0_pay1 (F := Ideal) v0 v2 v5 v21 v23 v29 = spread (kerXW v0 v2 v5 v21 v23 v29) := rfl

theorem pay2_eq (v0 : Vec Ideal S256x2048 .f32) (v35 : FVec Ideal S256x2048 .f32) (v39 : Vec Ideal S1x2048x8 .bf16) (v42 : Vec Ideal S1x8 .f32)
    (v58 v60 : Vec Ideal S1x2048x512 .bf16) (v66 : Vec Ideal S512x8 .bf16) :
    Gen.k0_pay2 (F := Ideal) v0 v35 v39 v42 v58 v60 v66
      = addf (addf v0 (mulf v0 v35)) (mulf v0 (spread (kerXW (addf v0 (mulf v0 v35)) v39 v42 v58 v60 v66))) := rfl

theorem pay3_eq (v0 : Vec Ideal S256x2048 .f32) (v74 : FVec Ideal S256x2048 .f32) (v76 : Vec Ideal S1x2048x8 .bf16) (v79 : Vec Ideal S1x8 .f32)
    (v95 v97 : Vec Ideal S1x2048x512 .bf16) (v103 : Vec Ideal S512x8 .bf16) :
    Gen.k0_pay3 (F := Ideal) v0 v74 v76 v79 v95 v97 v103
      = addf v74 (mulf v0 (spread (kerXW v74 v76 v79 v95 v97 v103))) := rfl

end Cert.KernelIdeal.Row

end
-- ==== Proof.KerGate.lean ====
/-
  The gate of one layer of the kernel body, read at a row: the logits are the row times the gate weights plus the bias,
  and the softmax of a block's logits is, row by row, the softmax of the specification.
-/
import proofs.«114899_j29583734734870_1_alg».proof.Proof.KerDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Facts₀ Idealize.ShloMosaic Idealize.ShloMosaic.ValueIdx Cert.CrossMix

/-! ## A vector as a column, and a column spread along the rows -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column and spread along the rows reads, at `(p, c)`, the vector at `p`. -/
theorem column_spread_apply {α : Type} {a b : ℕ} (y : (⟨1, ![a]⟩ : Shape).Idx → α)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ y hc) hb (ix2 p c) = y (ix1 p) :=
  (broadcastTo_a1_ab_apply _ hb p c).trans (shapeCast_a_a1_apply y hc p 0)

/-- A per-row scalar spread over the 2048 columns, read at (p, d), is the scalar of row p. -/
theorem spread_apply (y : FVec Ideal S256 .f32) (p : Fin 256) (d : Fin 2048) : spread y (ix2 p d) = y (ix1 p) := by
  unfold spread
  exact column_spread_apply y _ _ p d

/-! ## The logits: a [256, 2048] × [2048, 8] product into zero, plus the bias row -/

/-- The product's left operand index at result `j` and contraction index `k`: row `j 0`, … -/
theorem gateDot_lhs_0 (j : S256x8.Idx) (k : dot_S256x2048_S2048x8_S256x8_1_0_0_1_n_n.contr.Idx) :
    (dot_S256x2048_S2048x8_S256x8_1_0_0_1_n_n.lhsIdx j k 0 : ℕ) = j 0 := by
  simp [DotDims.lhsIdx, dot_S256x2048_S2048x8_S256x8_1_0_0_1_n_n]; rfl
/-- … column `k`; -/
theorem gateDot_lhs_1 (j : S256x8.Idx) (k : dot_S256x2048_S2048x8_S256x8_1_0_0_1_n_n.contr.Idx) :
    (dot_S256x2048_S2048x8_S256x8_1_0_0_1_n_n.lhsIdx j k 1 : ℕ) = k ⟨0, by decide⟩ := by
  simp [DotDims.lhsIdx, dot_S256x2048_S2048x8_S256x8_1_0_0_1_n_n]; rfl
/-- the right operand's: row `k`, … -/
theorem gateDot_rhs_0 (j : S256x8.Idx) (k : dot_S256x2048_S2048x8_S256x8_1_0_0_1_n_n.contr.Idx) :
    (dot_S256x2048_S2048x8_S256x8_1_0_0_1_n_n.rhsIdx j k 0 : ℕ) = k ⟨0, by decide⟩ := by
  simp [DotDims.rhsIdx, dot_S256x2048_S2048x8_S256x8_1_0_0_1_n_n]; rfl
/-- … column `j 1`. -/
theorem gateDot_rhs_1 (j : S256x8.Idx) (k : dot_S256x2048_S2048x8_S256x8_1_0_0_1_n_n.contr.Idx) :
    (dot_S256x2048_S2048x8_S256x8_1_0_0_1_n_n.rhsIdx j k 1 : ℕ) = j 1 := by
  simp [DotDims.rhsIdx, dot_S256x2048_S2048x8_S256x8_1_0_0_1_n_n]; rfl

/-- The contraction's indices are `Fin 2048`. -/
abbrev gateContr : dot_S256x2048_S2048x8_S256x8_1_0_0_1_n_n.contr.Idx ≃ Fin 2048 :=
  contrEquiv1 dot_S256x2048_S2048x8_S256x8_1_0_0_1_n_n 2048 rfl rfl

/-- At result `(p, e)` and contraction coordinate `d` the left operand is read at `(p, d)`, -/
theorem gateDot_lhsIdx (p : Fin 256) (e : Fin 8) (d : Fin 2048) :
    dot_S256x2048_S2048x8_S256x8_1_0_0_1_n_n.lhsIdx (ix2 p e) (gateContr.symm d) = ix2 p d :=
  Shape.idx_ext₂ (gateDot_lhs_0 _ _)
    ((gateDot_lhs_1 _ _).trans (contrEquiv1_symm_val dot_S256x2048_S2048x8_S256x8_1_0_0_1_n_n 2048 rfl rfl d))
/-- and the right operand at `(d, e)`. -/
theorem gateDot_rhsIdx (p : Fin 256) (e : Fin 8) (d : Fin 2048) :
    dot_S256x2048_S2048x8_S256x8_1_0_0_1_n_n.rhsIdx (ix2 p e) (gateContr.symm d) = ix2 d e :=
  Shape.idx_ext₂ ((gateDot_rhs_0 _ _).trans (contrEquiv1_symm_val dot_S256x2048_S2048x8_S256x8_1_0_0_1_n_n 2048 rfl rfl d))
    (gateDot_rhs_1 _ _)

/-- The logits at (p, e): row p against column e of the [2048, 8] weights, plus the bias entry. -/
theorem kerLogits_apply (x : FVec Ideal S256x2048 .f32) (w : Vec Ideal S1x2048x8 .bf16) (b : Vec Ideal S1x8 .f32) (p : Fin 256) (e : Fin 8) :
    kerLogits x w b (ix2 p e) = (∑ d : Fin 2048, x (ix2 p d) * w (ix3 0 d e)) + b (ix2 0 e) := by
  unfold kerLogits
  refine (addf_apply _ _ _).trans (congrArg₂ (· + ·) ?_ ?_)
  · -- the product into the zero splat is the sum over the contraction, re-indexed by its coordinate
    refine (Ideal.matmul_constant_zero_apply dot_S256x2048_S2048x8_S256x8_1_0_0_1_n_n none _ _ (ix2 p e)).trans ?_
    rw [← Equiv.sum_comp gateContr.symm]
    refine Finset.sum_congr rfl fun d _ => ?_
    rw [gateDot_lhsIdx, gateDot_rhsIdx]
    refine congrArg₂ (· * ·) rfl ?_
    exact shapeCast_1ab_ab_apply w _ d e
  · -- the bias row: [1, 8] to [8] and back, then down the rows
    refine (broadcastTo_1b_ab_apply _ _ p e).trans ?_
    refine (shapeCast_a_1a_apply _ _ 0 e).trans ?_
    exact shapeCast_1a_a_apply b _ e

/-! ## The softmax of a block, row by row -/

/-- The source index a row's reduction puts column `k` at is `(p, k)`. -/
theorem rowLift_eq (p : Fin 256) (k : Fin 8) : reduces_S256x8_S256.lift (ix1 p) k = ix2 p k :=
  funext fun a => match a with | ⟨0, _⟩ => Fin.ext rfl | ⟨1, _⟩ => Fin.ext rfl

/-- The row maxima as the body takes them: the reduction from `-∞`, then once more against `-∞`. -/
def kerRowMax (v9 : FVec Ideal S256x8 .f32) : FVec Ideal S256 .f32 :=
  maximumf (broadcast S256 (Scalar.ofBits .f32 0xFF800000#32 : Ideal .f32))
    (multiReduction .maximumf [1] S256 v9 0xFF800000#32 reduces_S256x8_S256 (.inl rfl) rfl)

/-- The exponentials of the logits less their row's maximum. -/
def kerExpShift (v9 : FVec Ideal S256x8 .f32) : FVec Ideal S256x8 .f32 :=
  exp (subf v9 (broadcastTo S256x8 (shapeCast S256x1 (kerRowMax v9) shapeCasts_S256_S256x1) broadcasts_S256x1_S256x8))

/-- The body's softmax is those exponentials over their row sums. -/
theorem kerGate_eq (v9 : FVec Ideal S256x8 .f32) :
    kerGate v9 = divf (kerExpShift v9)
      (broadcastTo S256x8 (shapeCast S256x1
        (multiReduction .add [1] S256 (kerExpShift v9) 0x00000000#32 reduces_S256x8_S256 (.inl rfl) rfl)
        shapeCasts_S256_S256x1) broadcasts_S256x1_S256x8) := rfl

/-- Row `p`'s maximum is the specification's: the fold of `max` from `-∞` over the row's eight logits, against `-∞`. -/
theorem kerRowMax_apply (lg : FVec Ideal S256x8 .f32) (p : Fin 256) :
    kerRowMax lg (ix1 p) = max negInf ((Finset.univ : Finset (Fin 8)).fold max negInf (fun e' => lg (ix2 p e'))) := by
  unfold kerRowMax
  refine (maximumf_apply _ _ _).trans (congrArg₂ max rfl ?_)
  refine (Ideal.multiReduction_maximumf_single lg _ _ _ _ (ix1 p)).trans ?_
  show (Finset.univ : Finset (Fin 8)).fold max negInf (lg ∘ reduces_S256x8_S256.lift (ix1 p)) = _
  exact congrArg (fun f : Fin 8 → EReal => (Finset.univ : Finset (Fin 8)).fold max negInf f)
    (funext fun k => congrArg lg (rowLift_eq p k))

/-- The shifted exponential at `(p, e)`. -/
theorem kerExpShift_apply (lg : FVec Ideal S256x8 .f32) (p : Fin 256) (e : Fin 8) :
    kerExpShift lg (ix2 p e)
      = Ideal.exp (lg (ix2 p e) - max negInf ((Finset.univ : Finset (Fin 8)).fold max negInf (fun e' => lg (ix2 p e')))) := by
  unfold kerExpShift
  show Ideal.exp (lg (ix2 p e) - _) = _
  refine congrArg (fun m => Ideal.exp (lg (ix2 p e) - m)) ?_
  exact (column_spread_apply (kerRowMax lg) _ _ p e).trans (kerRowMax_apply lg p)

/-- The block's softmax at (p, e) is the specification's softmax of row p's eight logits. -/
theorem kerGate_apply (lg : FVec Ideal S256x8 .f32) (p : Fin 256) (e : Fin 8) :
    kerGate lg (ix2 p e) = gateRow (fun e' => lg (ix2 p e')) e := by
  rw [kerGate_eq]
  unfold gateRow
  refine (divf_apply _ _ _).trans (congrArg₂ Ideal.div (kerExpShift_apply lg p e) ?_)
  refine (column_spread_apply _ _ _ p e).trans ?_
  refine (Ideal.multiReduction_add_single (kerExpShift lg) _ _ _ _ (ix1 p)).trans ?_
  show (∑ k : Fin 8, kerExpShift lg (reduces_S256x8_S256.lift (ix1 p) k)) = _
  refine Finset.sum_congr rfl fun k _ => ?_
  rw [rowLift_eq]
  exact kerExpShift_apply lg p k

end Cert.KernelIdeal.Row

end
-- ==== Proof.KerExpert.lean ====
/-
  The experts' bilinear forms of one layer of the kernel body, read at a row.

  The body multiplies the two [256, 512] products entrywise and then contracts the 512 columns against a [512, 8]
  operand.  When that operand is the 0/1 selector of the groups of 64 columns, entry (p, e) of the result is the sum over
  expert e's 64 columns of the product of the two forms: on the extended reals `a · 0 = 0` and `a · 1 = a` for every
  `a`, the infinities included, so the selector law uses no finiteness.
-/
import proofs.«114899_j29583734734870_1_alg».proof.Proof.KerDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Facts₀ Idealize.ShloMosaic Idealize.ShloMosaic.ValueIdx Cert.CrossMix

/-- The 512 columns are the eight groups of 64: the pair `(e, r)` is column `64 e + r`, and a column `k` is the pair
    `(k / 64, k % 64)`. -/
def colEquiv : Fin 8 × Fin 64 ≃ Fin 512 where
  toFun q := col q.1 q.2
  invFun k := (⟨k.val / 64, by have := k.isLt; omega⟩, ⟨k.val % 64, Nat.mod_lt _ (by decide)⟩)
  left_inv q := by
    rcases q with ⟨e, r⟩
    have he := e.isLt
    have hr := r.isLt
    refine Prod.ext (Fin.ext ?_) (Fin.ext ?_)
    · show (64 * e.val + r.val) / 64 = e.val
      omega
    · show (64 * e.val + r.val) % 64 = r.val
      omega
  right_inv k := by
    refine Fin.ext ?_
    show 64 * (k.val / 64) + k.val % 64 = k.val
    omega

/-- Column `64 e + r` lies in group `e`. -/
theorem col_div (e : Fin 8) (r : Fin 64) : (col e r).val / 64 = e.val := by
  have hr := r.isLt
  show (64 * e.val + r.val) / 64 = e.val
  omega

/-- Summing `a k` against the 0/1 selector of the `e`-th group of 64 among 512 keeps exactly that group. -/
theorem sum_mul_selector (a : Fin 512 → EReal) (e : Fin 8) :
    ∑ k : Fin 512, a k * (if k.val / 64 = e.val then (1 : EReal) else 0) = ∑ r : Fin 64, a (col e r) := by
  -- split the sum over the 512 columns into the sum over the groups of the sums over each group's 64 columns
  rw [← Equiv.sum_comp colEquiv, Fintype.sum_prod_type]
  -- only group `e` contributes
  rw [Finset.sum_eq_single e]
  · refine Finset.sum_congr rfl fun r _ => ?_
    show a (col e r) * (if (col e r).val / 64 = e.val then (1 : EReal) else 0) = a (col e r)
    rw [if_pos (col_div e r), mul_one]
  · intro b _ hb
    refine Finset.sum_eq_zero fun r _ => ?_
    show a (col b r) * (if (col b r).val / 64 = e.val then (1 : EReal) else 0) = 0
    rw [col_div b r, if_neg (fun h => hb (Fin.ext h)), mul_zero]
  · intro h; exact absurd (Finset.mem_univ e) h

/-- A [256, 2048] × [2048, 512] product into the zero accumulator, read at (p, k): the sum over the 2048 contracted
    positions of the products of the entries. -/
theorem matmul_2048_512_apply (L : FVec Ideal S256x2048 .bf16) (R : FVec Ideal S2048x512 .bf16) (p : Fin 256) (k : Fin 512) :
    matmul dot_S256x2048_S2048x512_S256x512_1_0_0_1_n_n none L R (constant S256x512 .f32 0x00000000#32) (ix2 p k)
      = ∑ d : Fin 2048, L (ix2 p d) * R (ix2 d k) := by
  show FloatOps.matmul dot_S256x2048_S2048x512_S256x512_1_0_0_1_n_n none L R (constant S256x512 .f32 0x00000000#32) (ix2 p k) = _
  rw [Ideal.matmul_constant_zero_apply,
    ← Equiv.sum_comp (contrEquiv1 dot_S256x2048_S2048x512_S256x512_1_0_0_1_n_n 2048 rfl rfl).symm]
  refine Finset.sum_congr rfl fun d _ => ?_
  -- the contraction index built from `d` has `d` as its one coordinate
  have hd := contrEquiv1_symm_val dot_S256x2048_S2048x512_S256x512_1_0_0_1_n_n 2048 rfl rfl d
  -- the left operand is read at (p, d): axis 0 follows the output's row, axis 1 the contraction
  have hl : dot_S256x2048_S2048x512_S256x512_1_0_0_1_n_n.lhsIdx (ix2 p k)
      ((contrEquiv1 dot_S256x2048_S2048x512_S256x512_1_0_0_1_n_n 2048 rfl rfl).symm d) = ix2 p d := by
    funext ax; apply Fin.ext
    match ax with
    | ⟨0, _⟩ => simp [DotDims.lhsIdx, dot_S256x2048_S2048x512_S256x512_1_0_0_1_n_n]; rfl
    | ⟨1, _⟩ =>
      rw [DotDims.lhsIdx_val_of_single dot_S256x2048_S2048x512_S256x512_1_0_0_1_n_n (cl := ⟨1, by decide⟩) rfl]
      exact hd
  -- the right operand is read at (d, k): axis 0 follows the contraction, axis 1 the output's column
  have hr : dot_S256x2048_S2048x512_S256x512_1_0_0_1_n_n.rhsIdx (ix2 p k)
      ((contrEquiv1 dot_S256x2048_S2048x512_S256x512_1_0_0_1_n_n 2048 rfl rfl).symm d) = ix2 d k := by
    funext ax; apply Fin.ext
    match ax with
    | ⟨0, _⟩ =>
      rw [DotDims.rhsIdx_val_of_single dot_S256x2048_S2048x512_S256x512_1_0_0_1_n_n (cr := ⟨0, by decide⟩) rfl]
      exact hd
    | ⟨1, _⟩ => simp [DotDims.rhsIdx, dot_S256x2048_S2048x512_S256x512_1_0_0_1_n_n]; rfl
  rw [hl, hr]

/-- A [256, 512] × [512, 8] product into the zero accumulator, read at (p, k): the sum over the 512 contracted
    positions of the products of the entries. -/
theorem matmul_512_8_apply (L : FVec Ideal S256x512 .bf16) (R : FVec Ideal S512x8 .bf16) (p : Fin 256) (k : Fin 8) :
    matmul dot_S256x512_S512x8_S256x8_1_0_0_1_n_n none L R (constant S256x8 .f32 0x00000000#32) (ix2 p k)
      = ∑ d : Fin 512, L (ix2 p d) * R (ix2 d k) := by
  show FloatOps.matmul dot_S256x512_S512x8_S256x8_1_0_0_1_n_n none L R (constant S256x8 .f32 0x00000000#32) (ix2 p k) = _
  rw [Ideal.matmul_constant_zero_apply,
    ← Equiv.sum_comp (contrEquiv1 dot_S256x512_S512x8_S256x8_1_0_0_1_n_n 512 rfl rfl).symm]
  refine Finset.sum_congr rfl fun d _ => ?_
  -- the contraction index built from `d` has `d` as its one coordinate
  have hd := contrEquiv1_symm_val dot_S256x512_S512x8_S256x8_1_0_0_1_n_n 512 rfl rfl d
  -- the left operand is read at (p, d): axis 0 follows the output's row, axis 1 the contraction
  have hl : dot_S256x512_S512x8_S256x8_1_0_0_1_n_n.lhsIdx (ix2 p k)
      ((contrEquiv1 dot_S256x512_S512x8_S256x8_1_0_0_1_n_n 512 rfl rfl).symm d) = ix2 p d := by
    funext ax; apply Fin.ext
    match ax with
    | ⟨0, _⟩ => simp [DotDims.lhsIdx, dot_S256x512_S512x8_S256x8_1_0_0_1_n_n]; rfl
    | ⟨1, _⟩ =>
      rw [DotDims.lhsIdx_val_of_single dot_S256x512_S512x8_S256x8_1_0_0_1_n_n (cl := ⟨1, by decide⟩) rfl]
      exact hd
  -- the right operand is read at (d, k): axis 0 follows the contraction, axis 1 the output's column
  have hr : dot_S256x512_S512x8_S256x8_1_0_0_1_n_n.rhsIdx (ix2 p k)
      ((contrEquiv1 dot_S256x512_S512x8_S256x8_1_0_0_1_n_n 512 rfl rfl).symm d) = ix2 d k := by
    funext ax; apply Fin.ext
    match ax with
    | ⟨0, _⟩ =>
      rw [DotDims.rhsIdx_val_of_single dot_S256x512_S512x8_S256x8_1_0_0_1_n_n (cr := ⟨0, by decide⟩) rfl]
      exact hd
    | ⟨1, _⟩ => simp [DotDims.rhsIdx, dot_S256x512_S512x8_S256x8_1_0_0_1_n_n]; rfl
  rw [hl, hr]

/-- The experts' forms at (p, e), when `s` is the selector of the groups of 64. -/
theorem kerExpert_apply (x : FVec Ideal S256x2048 .f32) (u v : Vec Ideal S1x2048x512 .bf16) (s : Vec Ideal S512x8 .bf16)
    (hs : ∀ (k : Fin 512) (e : Fin 8), s (ix2 k e) = if k.val / 64 = e.val then (1 : EReal) else 0) (p : Fin 256) (e : Fin 8) :
    kerExpert x u v s (ix2 p e)
      = ∑ r : Fin 64, (∑ d : Fin 2048, x (ix2 p d) * u (ix3 0 d (col e r))) * (∑ d : Fin 2048, x (ix2 p d) * v (ix3 0 d (col e r))) := by
  -- each of the two [256, 512] products at (p, k): the row of `x` against column `k` of the factor (the format change
  -- of `x` is the identity on the extended reals, and the factor's leading unit axis is dropped)
  have hA : ∀ (w : Vec Ideal S1x2048x512 .bf16) (k : Fin 512),
      matmul dot_S256x2048_S2048x512_S256x512_1_0_0_1_n_n none (truncf .bf16 x bitsLt_bf16_f32)
        (shapeCast S2048x512 w shapeCasts_S1x2048x512_S2048x512 : FVec Ideal S2048x512 .bf16)
        (constant S256x512 .f32 0x00000000#32) (ix2 p k)
        = ∑ d : Fin 2048, x (ix2 p d) * w (ix3 0 d k) := by
    intro w k
    rw [matmul_2048_512_apply]
    refine Finset.sum_congr rfl fun d _ => ?_
    rw [truncf_apply, shapeCast_1ab_ab_apply]
  show matmul dot_S256x512_S512x8_S256x8_1_0_0_1_n_n none
      (truncf .bf16
        (mulf
          (matmul dot_S256x2048_S2048x512_S256x512_1_0_0_1_n_n none (truncf .bf16 x bitsLt_bf16_f32)
            (shapeCast S2048x512 u shapeCasts_S1x2048x512_S2048x512 : FVec Ideal S2048x512 .bf16)
            (constant S256x512 .f32 0x00000000#32))
          (matmul dot_S256x2048_S2048x512_S256x512_1_0_0_1_n_n none (truncf .bf16 x bitsLt_bf16_f32)
            (shapeCast S2048x512 v shapeCasts_S1x2048x512_S2048x512 : FVec Ideal S2048x512 .bf16)
            (constant S256x512 .f32 0x00000000#32)))
        bitsLt_bf16_f32)
      (shapeCast S512x8 s shapeCasts_S512x8_S512x8 : FVec Ideal S512x8 .bf16) (constant S256x8 .f32 0x00000000#32) (ix2 p e) = _
  -- the third product at (p, e) is the sum over the 512 columns of the entrywise product times the selector
  rw [matmul_512_8_apply, shapeCast_self]
  refine Eq.trans (Finset.sum_congr rfl fun k _ => ?_)
    (sum_mul_selector
      (fun k => (∑ d : Fin 2048, x (ix2 p d) * u (ix3 0 d k)) * (∑ d : Fin 2048, x (ix2 p d) * v (ix3 0 d k))) e)
  rw [truncf_apply, mulf_apply, hA u k, hA v k, hs k e]

end Cert.KernelIdeal.Row

end
-- ==== Proof.KerRow.lean ====
/-
  One layer of the kernel body read at a row: the layer's scalar for row `p` of a block is the row function of the
  specification, of row `p` and of the loaded slices' entries (the weights laid out [d, e] and [d, 64 e + r]).
-/
import proofs.«114899_j29583734734870_1_alg».proof.Proof.KerGate
import proofs.«114899_j29583734734870_1_alg».proof.Proof.KerExpert

noncomputable section

namespace Cert.KernelIdeal.Row

open Cert.KernelIdeal Cert.KernelIdeal.Facts₀ Idealize.ShloMosaic Idealize.ShloMosaic.ValueIdx Cert.CrossMix

/-- The layer's scalar at row `p`, when `s` is the selector of the groups of 64. -/
theorem kerXW_apply (x : FVec Ideal S256x2048 .f32) (w : Vec Ideal S1x2048x8 .bf16) (b : Vec Ideal S1x8 .f32)
    (u v : Vec Ideal S1x2048x512 .bf16) (s : Vec Ideal S512x8 .bf16)
    (hs : ∀ (k : Fin 512) (e : Fin 8), s (ix2 k e) = if k.val / 64 = e.val then (1 : EReal) else 0) (p : Fin 256) :
    kerXW x w b u v s (ix1 p)
      = xwRow (fun e d => w (ix3 0 d e)) (fun e => b (ix2 0 e)) (fun e r d => u (ix3 0 d (col e r))) (fun e r d => v (ix3 0 d (col e r)))
          (fun d => x (ix2 p d)) := by
  have hl : ∀ k : Fin 8, reduces_S256x8_S256.lift (ix1 p) k = ix2 p k := fun k =>
    funext fun a => Fin.ext (by match a with | ⟨0, _⟩ => rfl | ⟨1, _⟩ => rfl)
  unfold kerXW xwRow
  refine (Ideal.multiReduction_add_single _ _ reduces_S256x8_S256 _ _ (ix1 p)).trans ?_
  refine Finset.sum_congr rfl fun k _ => ?_
  rw [hl k]
  show kerExpert x u v s (ix2 p k) * kerGate (kerLogits x w b) (ix2 p k) = _
  rw [kerExpert_apply x u v s hs p k, kerGate_apply (kerLogits x w b) p k]
  congr 2
  funext e'
  exact kerLogits_apply x w b p e'

end Cert.KernelIdeal.Row

end
-- ==== Proof.KerBlock.lean ====
/-
  What the kernel body leaves in a block of 256 rows, entry by entry: with the fifth operand the selector of the groups
  of 64 columns, entry (p, d) is entry d of the three layers of the specification applied to row p of the block, the
  weights read off the staged arrays at (l, d, 64 e + r), (l, d, e) and (l, e).
-/
import proofs.«114899_j29583734734870_1_alg».proof.Proof.Gen.KernelIdeal.Frame
import proofs.«114899_j29583734734870_1_alg».proof.Proof.KerRow

noncomputable section

namespace Cert.KernelIdeal.Row

open Cert.KernelIdeal Cert.KernelIdeal.Gen Cert.KernelIdeal.Facts₀ Idealize.ShloMosaic Idealize.ShloMosaic.ValueIdx Cert.CrossMix

/-! ## The body's loads of a layer's slices, read at an index -/

theorem ld_w (l : Fin 3) (x3 : Vec Ideal S3x2048x8 .bf16) (inb : ∀ a, (![l.val, 0, 0] : Fin 3 → Nat) a + S1x2048x8.size a ≤ S3x2048x8.size a)
    (d : Fin 2048) (e : Fin 8) :
    View.ld x3 (Rect.unit (s := S3x2048x8) ![l.val, 0, 0] S1x2048x8.size inb) (ix3 0 d e) = x3 (ix3 l d e) := by
  unfold View.ld
  refine congrArg x3 (funext fun a => Fin.ext ?_)
  match a with
  | ⟨0, _⟩ => show l.val + 1 * 0 = l.val; omega
  | ⟨1, _⟩ => show 0 + 1 * d.val = d.val; omega
  | ⟨2, _⟩ => show 0 + 1 * e.val = e.val; omega

theorem ld_b (l : Fin 3) (x4 : Vec Ideal S3x8 .f32) (inb : ∀ a, (![l.val, 0] : Fin 2 → Nat) a + S1x8.size a ≤ S3x8.size a) (e : Fin 8) :
    View.ld x4 (Rect.unit (s := S3x8) ![l.val, 0] S1x8.size inb) (ix2 0 e) = x4 (ix2 l e) := by
  unfold View.ld
  refine congrArg x4 (funext fun a => Fin.ext ?_)
  match a with
  | ⟨0, _⟩ => show l.val + 1 * 0 = l.val; omega
  | ⟨1, _⟩ => show 0 + 1 * e.val = e.val; omega

theorem ld_u (l : Fin 3) (x1 : Vec Ideal S3x2048x512 .bf16) (inb : ∀ a, (![l.val, 0, 0] : Fin 3 → Nat) a + S1x2048x512.size a ≤ S3x2048x512.size a)
    (d : Fin 2048) (k : Fin 512) :
    View.ld x1 (Rect.unit (s := S3x2048x512) ![l.val, 0, 0] S1x2048x512.size inb) (ix3 0 d k) = x1 (ix3 l d k) := by
  unfold View.ld
  refine congrArg x1 (funext fun a => Fin.ext ?_)
  match a with
  | ⟨0, _⟩ => show l.val + 1 * 0 = l.val; omega
  | ⟨1, _⟩ => show 0 + 1 * d.val = d.val; omega
  | ⟨2, _⟩ => show 0 + 1 * k.val = k.val; omega

theorem hz2 : (![0, 0] : Fin 2 → Nat) = fun _ => 0 := funext fun a => by fin_cases a <;> rfl

/-! ## One layer on a row of the block -/

/-- The residual update of a block, read along row `p`, is the row step of the specification. -/
theorem layer_row (x0 xi : FVec Ideal S256x2048 .f32) (w : Vec Ideal S1x2048x8 .bf16) (b : Vec Ideal S1x8 .f32)
    (u v : Vec Ideal S1x2048x512 .bf16) (s : Vec Ideal S512x8 .bf16)
    (hs : ∀ (k : Fin 512) (e : Fin 8), s (ix2 k e) = if k.val / 64 = e.val then (1 : EReal) else 0) (p : Fin 256) :
    (fun d : Fin 2048 => (addf xi (mulf x0 (spread (kerXW xi w b u v s)))) (ix2 p d))
      = stepRow (fun e d => w (ix3 0 d e)) (fun e => b (ix2 0 e)) (fun e r d => u (ix3 0 d (col e r))) (fun e r d => v (ix3 0 d (col e r)))
          (fun d => x0 (ix2 p d)) (fun d => xi (ix2 p d)) := by
  funext d
  show xi (ix2 p d) + x0 (ix2 p d) * spread (kerXW xi w b u v s) (ix2 p d) = _
  rw [spread_apply, kerXW_apply xi w b u v s hs p]
  rfl

/-! ## The block -/

/-- What the body leaves in the output block, at (p, d). -/
theorem out_apply (x0 : Vec Ideal S256x2048 .f32) (x1 x2 : Vec Ideal S3x2048x512 .bf16) (x3 : Vec Ideal S3x2048x8 .bf16)
    (x4 : Vec Ideal S3x8 .f32) (x5 : Vec Ideal S512x8 .bf16)
    (hs : ∀ (k : Fin 512) (e : Fin 8), x5 (ix2 k e) = if k.val / 64 = e.val then (1 : EReal) else 0) (p : Fin 256) (d : Fin 2048) :
    out0_6 x0 x1 x2 x3 x4 x5 (ix2 p d)
      = rows3 (fun l e r d => x1 (ix3 l d (col e r))) (fun l e r d => x2 (ix3 l d (col e r))) (fun l e d => x3 (ix3 l d e))
          (fun l e => x4 (ix2 l e)) (fun d => x0 (ix2 p d)) d := by
  unfold out0_6
  rw [View.canon_unit_zero hz2]
  simp only [View.ld_unit_zero (S := S256x2048) hz2, View.ld_unit_zero (S := S512x8) hz2]
  rw [pay3_eq, pay2_eq, pay1_eq]
  have e0 := layer_row x0 x0 (View.ld x3 r0_1) (View.ld x4 r0_2) (View.ld x1 r0_3) (View.ld x2 r0_3) x5 hs p
  have e1 := fun xi => layer_row x0 xi (View.ld x3 r0_5) (View.ld x4 r0_6) (View.ld x1 r0_7) (View.ld x2 r0_7) x5 hs p
  have e2 := fun xi => layer_row x0 xi (View.ld x3 r0_8) (View.ld x4 r0_9) (View.ld x1 r0_10) (View.ld x2 r0_10) x5 hs p
  refine (congrFun (e2 _) d).trans ?_
  rw [e1 _, e0]
  have w0 : ∀ (d : Fin 2048) (e : Fin 8), View.ld x3 r0_1 (ix3 0 d e) = x3 (ix3 0 d e) := fun d e => ld_w 0 x3 _ d e
  have w1 : ∀ (d : Fin 2048) (e : Fin 8), View.ld x3 r0_5 (ix3 0 d e) = x3 (ix3 1 d e) := fun d e => ld_w 1 x3 _ d e
  have w2 : ∀ (d : Fin 2048) (e : Fin 8), View.ld x3 r0_8 (ix3 0 d e) = x3 (ix3 2 d e) := fun d e => ld_w 2 x3 _ d e
  have b0 : ∀ e : Fin 8, View.ld x4 r0_2 (ix2 0 e) = x4 (ix2 0 e) := fun e => ld_b 0 x4 _ e
  have b1 : ∀ e : Fin 8, View.ld x4 r0_6 (ix2 0 e) = x4 (ix2 1 e) := fun e => ld_b 1 x4 _ e
  have b2 : ∀ e : Fin 8, View.ld x4 r0_9 (ix2 0 e) = x4 (ix2 2 e) := fun e => ld_b 2 x4 _ e
  have u0 : ∀ (d : Fin 2048) (k : Fin 512), View.ld x1 r0_3 (ix3 0 d k) = x1 (ix3 0 d k) := fun d k => ld_u 0 x1 _ d k
  have u1 : ∀ (d : Fin 2048) (k : Fin 512), View.ld x1 r0_7 (ix3 0 d k) = x1 (ix3 1 d k) := fun d k => ld_u 1 x1 _ d k
  have u2 : ∀ (d : Fin 2048) (k : Fin 512), View.ld x1 r0_10 (ix3 0 d k) = x1 (ix3 2 d k) := fun d k => ld_u 2 x1 _ d k
  have v0 : ∀ (d : Fin 2048) (k : Fin 512), View.ld x2 r0_3 (ix3 0 d k) = x2 (ix3 0 d k) := fun d k => ld_u 0 x2 _ d k
  have v1 : ∀ (d : Fin 2048) (k : Fin 512), View.ld x2 r0_7 (ix3 0 d k) = x2 (ix3 1 d k) := fun d k => ld_u 1 x2 _ d k
  have v2 : ∀ (d : Fin 2048) (k : Fin 512), View.ld x2 r0_10 (ix3 0 d k) = x2 (ix3 2 d k) := fun d k => ld_u 2 x2 _ d k
  simp only [w0, w1, w2, b0, b1, b2, u0, u1, u2, v0, v1, v2]
  rfl

end Cert.KernelIdeal.Row

end
-- ==== Proof.KerHost.lean ====
/-
  What the kernel's region finds in the arrays its windows stage, entry by entry.

  Before the region the host re-lays the weights: `U` and `V` [3, 8, 64, 2048] are reshaped to [3, 512, 2048] and
  transposed to [3, 2048, 512], so entry (l, d, 64 e + r) is `U (l, e, r, d)`; `Wg` [3, 8, 2048] is transposed to
  [3, 2048, 8]; and a [512, 8] matrix is built from two iotas, a floor division by 64 and a comparison: entry (k, e)
  is 1 where k / 64 = e and 0 elsewhere.  (The narrowing to bf16 is the identity on the extended reals.)
-/
import proofs.«114899_j29583734734870_1_alg».proof.Proof.Gen.KernelIdeal.Frame
import proofs.«114899_j29583734734870_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HostSide

open Cert.KernelIdeal Cert.KernelIdeal.Gen Cert.KernelIdeal.Facts₀ Idealize.ShloMosaic Idealize.ShloMosaic.TcCoe Idealize.SL.Sem
open Idealize.ShloMosaic.ValueIdx Cert.CrossMix

variable (m : (ℓ : Loc nD τ sig) → Buf (Elt Ideal) ℓ)

/-- The [3, 8, 64, 2048] array viewed as [3, 512, 2048] reads, at (l, 64 e + r, d), the array at (l, e, r, d): the two
    indices have the same row-major position. -/
theorem reshape_apply {α : Type} (x : S3x8x64x2048.Idx → α) (l : Fin 3) (e : Fin 8) (r : Fin 64) (d : Fin 2048) :
    shapeCast S3x512x2048 x Gen.shapeCasts_S3x8x64x2048_S3x512x2048 (ix3 l (col e r) d) = x (ix4 l e r d) := by
  refine shapeCast_apply _ _ _ _ ?_
  rw [Shape.rowMajor_val_four, Shape.rowMajor_val_three]
  show ((l.val * 8 + e.val) * 64 + r.val) * 2048 + d.val = (l.val * 512 + (64 * e.val + r.val)) * 2048 + d.val
  omega

/-- The re-laid `U`: entry (l, d, 64 e + r) is `U (l, e, r, d)`. -/
theorem V_u (c : Dev nD) (l : Fin 3) (d : Fin 2048) (e : Fin 8) (r : Fin 64) :
    (V m c main_v2 : S3x2048x512.Idx → EReal) (ix3 l d (col e r))
      = (m ((c : Thread nD τ).loc main_arg1) : S3x8x64x2048.Idx → EReal) (ix4 l e r d) := by
  have e1 : (V m c main_v2 : S3x2048x512.Idx → EReal)
      = truncf (F := Ideal) .bf16 (transpose S3x2048x512 [0, 2, 1]
          (shapeCast S3x512x2048 (m ((c : Thread nD τ).loc main_arg1) : S3x8x64x2048.Idx → EReal)
            Gen.shapeCasts_S3x8x64x2048_S3x512x2048)
          Gen.transposes_S3x512x2048_S3x2048x512_0_2_1) Gen.bitsLt_bf16_f32 := by
    dsimp only [Gen.V]
    simp only [Gen.hostOps0, Gen.hostOps0_1, Gen.hostOps0_2, List.flatten_cons, List.flatten_nil, List.append_nil, List.cons_append, List.nil_append]
    after_results
    rfl
  rw [e1]
  show transpose S3x2048x512 [0, 2, 1]
      (shapeCast S3x512x2048 (m ((c : Thread nD τ).loc main_arg1) : S3x8x64x2048.Idx → EReal)
        Gen.shapeCasts_S3x8x64x2048_S3x512x2048)
      Gen.transposes_S3x512x2048_S3x2048x512_0_2_1 (ix3 l d (col e r)) = _
  rw [transpose_ix3_021_apply]
  exact reshape_apply _ l e r d

/-- The re-laid `V`: entry (l, d, 64 e + r) is `V (l, e, r, d)`. -/
theorem V_v (c : Dev nD) (l : Fin 3) (d : Fin 2048) (e : Fin 8) (r : Fin 64) :
    (V m c main_v5 : S3x2048x512.Idx → EReal) (ix3 l d (col e r))
      = (m ((c : Thread nD τ).loc main_arg2) : S3x8x64x2048.Idx → EReal) (ix4 l e r d) := by
  have e1 : (V m c main_v5 : S3x2048x512.Idx → EReal)
      = truncf (F := Ideal) .bf16 (transpose S3x2048x512 [0, 2, 1]
          (shapeCast S3x512x2048 (m ((c : Thread nD τ).loc main_arg2) : S3x8x64x2048.Idx → EReal)
            Gen.shapeCasts_S3x8x64x2048_S3x512x2048)
          Gen.transposes_S3x512x2048_S3x2048x512_0_2_1) Gen.bitsLt_bf16_f32 := by
    dsimp only [Gen.V]
    simp only [Gen.hostOps0, Gen.hostOps0_1, Gen.hostOps0_2, List.flatten_cons, List.flatten_nil, List.append_nil, List.cons_append, List.nil_append]
    after_results
    rfl
  rw [e1]
  show transpose S3x2048x512 [0, 2, 1]
      (shapeCast S3x512x2048 (m ((c : Thread nD τ).loc main_arg2) : S3x8x64x2048.Idx → EReal)
        Gen.shapeCasts_S3x8x64x2048_S3x512x2048)
      Gen.transposes_S3x512x2048_S3x2048x512_0_2_1 (ix3 l d (col e r)) = _
  rw [transpose_ix3_021_apply]
  exact reshape_apply _ l e r d

/-- The transposed gate weights: entry (l, d, e) is `Wg (l, e, d)`. -/
theorem V_wg (c : Dev nD) (l : Fin 3) (d : Fin 2048) (e : Fin 8) :
    (V m c main_v7 : S3x2048x8.Idx → EReal) (ix3 l d e)
      = (m ((c : Thread nD τ).loc main_arg3) : S3x8x2048.Idx → EReal) (ix3 l e d) := by
  have e1 : (V m c main_v7 : S3x2048x8.Idx → EReal)
      = truncf (F := Ideal) .bf16 (transpose S3x2048x8 [0, 2, 1]
          (m ((c : Thread nD τ).loc main_arg3) : S3x8x2048.Idx → EReal) Gen.transposes_S3x8x2048_S3x2048x8_0_2_1)
          Gen.bitsLt_bf16_f32 := by
    dsimp only [Gen.V]
    simp only [Gen.hostOps0, Gen.hostOps0_1, Gen.hostOps0_2, List.flatten_cons, List.flatten_nil, List.append_nil, List.cons_append, List.nil_append]
    after_results
  rw [e1]
  exact transpose_ix3_021_apply _ _ l d e

/-! ### The selector matrix: floor division of the positions by 64, compared with the column number -/

/-- A vector laid down the rows of a [512, 8] matrix reads, at (k, e), the vector at k. -/
theorem bcast_down_rows_apply {α : Type} (v : S512.Idx → α) (k : Fin 512) (e : Fin 8) :
    broadcastInDim S512x8 ![0, 1] Gen.bcast_S512x1_S512x8_0_1
      (broadcastInDim S512x1 ![0] Gen.bcast_S512_S512x1_0 v) (ix2 k e) = v (ix1 k) := by
  refine (broadcastInDim_apply _ _ _ (ix2 k e) (ix2 k (0 : Fin 1)) ?_).trans ?_
  · intro a
    match a with
    | ⟨0, _⟩ => rfl
    | ⟨1, _⟩ => rfl
  · refine broadcastInDim_apply _ _ _ _ (ix1 k) ?_
    intro a
    match a with
    | ⟨0, _⟩ => rfl

/-- A vector laid along the columns of a [512, 8] matrix reads, at (k, e), the vector at e. -/
theorem bcast_along_cols_apply {α : Type} (v : S8.Idx → α) (k : Fin 512) (e : Fin 8) :
    broadcastInDim S512x8 ![0, 1] Gen.bcast_S1x8_S512x8_0_1
      (broadcastInDim S1x8 ![1] Gen.bcast_S8_S1x8_1 v) (ix2 k e) = v (ix1 e) := by
  refine (broadcastInDim_apply _ _ _ (ix2 k e) (ix2 (0 : Fin 1) e) ?_).trans ?_
  · intro a
    match a with
    | ⟨0, _⟩ => rfl
    | ⟨1, _⟩ => rfl
  · refine broadcastInDim_apply _ _ _ _ (ix1 e) ?_
    intro a
    match a with
    | ⟨0, _⟩ => rfl

/-- The sign of a word: 0, -1 or 1. -/
abbrev sgnWord (x : BitVec 32) : BitVec 32 := if x = 0 then 0 else if x.msb then -1 else 1

/-- Floor division by 64 of one word, as the outlined function computes it: the quotient rounded toward zero, less one
    where the signs differ and the remainder is not zero. -/
def floorWord (a : BitVec 32) : BitVec 32 :=
  Scalar.select
    (IntOp.andi (IntOp.cmpi .ne (sgnWord a) (sgnWord 64#32)) (IntOp.cmpi .ne (IntOp.remsi .host a 64#32) 0#32))
    (IntOp.subi (IntOp.divsi .host a 64#32) 1#32)
    (IntOp.divsi .host a 64#32)

/-- The positions 0 … 511 floor-divided by 64, as the host operations compute them. -/
def floorDiv64 : IVec S512 32 :=
  select
    (andi
      (cmpi .ne (signi (iotaInDim S512 32 0))
        (broadcastInDim S512 ![] Gen.bcast_S_S512 (signi (id (constantI S_ 32 64#32)))))
      (cmpi .ne (Host.remsi (iotaInDim S512 32 0) (broadcastInDim S512 ![] Gen.bcast_S_S512 (id (constantI S_ 32 64#32))))
        (broadcastInDim S512 ![] Gen.bcast_S_S512 (constantI S_ 32 0#32))))
    (subi (Host.divsi (iotaInDim S512 32 0) (broadcastInDim S512 ![] Gen.bcast_S_S512 (id (constantI S_ 32 64#32))))
      (broadcastInDim S512 ![] Gen.bcast_S_S512 (constantI S_ 32 1#32)))
    (Host.divsi (iotaInDim S512 32 0) (broadcastInDim S512 ![] Gen.bcast_S_S512 (id (constantI S_ 32 64#32))))

/-- At position k it is the one-word function at the word of k. -/
theorem floorDiv64_apply (k : Fin 512) : floorDiv64 (ix1 k) = floorWord (BitVec.ofNat 32 k.val) := rfl

/-- A small non-negative word divided by 64, signed: no corner is met and the quotient is the naturals'. -/
theorem divsi_64_ofNat (k : ℕ) (hk : k < 512) :
    IntOp.divsi .host (BitVec.ofNat 32 k) 64#32 = BitVec.ofNat 32 (k / 64) := by
  have hcorner : ¬ IntOp.SDivCorner (BitVec.ofNat 32 k) 64#32 := by
    intro hc; rcases hc with hc | ⟨_, hc⟩ <;> exact absurd hc (by decide)
  have hm : (BitVec.ofNat 32 k).msb = false :=
    BitVec.msb_eq_false_iff_two_mul_lt.mpr (by simp only [BitVec.toNat_ofNat]; omega)
  apply BitVec.eq_of_toNat_eq
  simp only [IntOp.divsi, if_neg hcorner, BitVec.sdiv_eq, hm, show (64#32 : BitVec 32).msb = false from by decide,
    BitVec.udiv_eq, BitVec.toNat_udiv, BitVec.toNat_ofNat, Nat.reducePow, Nat.reduceMod]
  omega

/-- On 0 ≤ k < 512 the correction never applies (at 0 the remainder is 0; above 0 both signs are 1): floor division is
    the plain quotient. -/
theorem floorWord_ofNat (k : ℕ) (hk : k < 512) : floorWord (BitVec.ofNat 32 k) = BitVec.ofNat 32 (k / 64) := by
  have hcond : IntOp.andi (IntOp.cmpi .ne (sgnWord (BitVec.ofNat 32 k)) (sgnWord 64#32))
      (IntOp.cmpi .ne (IntOp.remsi .host (BitVec.ofNat 32 k) 64#32) 0#32) = 0#1 := by
    rcases Nat.eq_zero_or_pos k with rfl | hpos
    · decide
    · have hne : BitVec.ofNat 32 k ≠ 0 := by
        intro h
        have h' : (BitVec.ofNat 32 k).toNat = 0 := by rw [h]; rfl
        rw [BitVec.toNat_ofNat] at h'
        omega
      have hm : (BitVec.ofNat 32 k).msb = false :=
        BitVec.msb_eq_false_iff_two_mul_lt.mpr (by simp only [BitVec.toNat_ofNat]; omega)
      have hs : sgnWord (BitVec.ofNat 32 k) = 1 := by
        simp only [sgnWord, if_neg hne, hm, Bool.false_eq_true, if_false]
      rw [hs, show IntOp.cmpi .ne (1 : BitVec 32) (sgnWord 64#32) = 0#1 from by decide]
      exact BitVec.zero_and
  unfold floorWord
  rw [hcond, select_zero, divsi_64_ofNat k hk]

/-- Two words of small naturals are equal exactly when the naturals are. -/
theorem ofNat32_eq_iff (a b : ℕ) (ha : a < 2 ^ 32) (hb : b < 2 ^ 32) : BitVec.ofNat 32 a = BitVec.ofNat 32 b ↔ a = b := by
  constructor
  · intro h
    have h' := congrArg BitVec.toNat h
    simp only [BitVec.toNat_ofNat] at h'
    omega
  · intro h; rw [h]

/-- The comparison bit read as a number is 1 or 0. -/
theorem uitofp_bit (b : BitVec 1) (P : Prop) [Decidable P] (h : b = 1#1 ↔ P) :
    (((b.toNat : ℝ) : EReal)) = if P then (1 : EReal) else 0 := by
  by_cases hP : P
  · rw [if_pos hP, h.mpr hP]; simp
  · rw [if_neg hP, eq_zero_of_ne_one (fun hb => hP (h.mp hb))]; simp

/-- The selector matrix: entry (k, e) is 1 where k / 64 = e, else 0. -/
theorem V_sel (c : Dev nD) (k : Fin 512) (e : Fin 8) :
    (V m c main_v16 : S512x8.Idx → EReal) (ix2 k e) = if k.val / 64 = e.val then (1 : EReal) else 0 := by
  have e1 : (V m c main_v16 : S512x8.Idx → EReal)
      = uitofp (F := Ideal) .bf16
          (cmpi .eq
            (broadcastInDim S512x8 ![0, 1] Gen.bcast_S512x1_S512x8_0_1
              (broadcastInDim S512x1 ![0] Gen.bcast_S512_S512x1_0 floorDiv64))
            (broadcastInDim S512x8 ![0, 1] Gen.bcast_S1x8_S512x8_0_1
              (broadcastInDim S1x8 ![1] Gen.bcast_S8_S1x8_1 (iotaInDim S8 32 0)))) := by
    dsimp only [Gen.V]
    simp only [Gen.hostOps0, Gen.hostOps0_1, Gen.hostOps0_2, List.flatten_cons, List.flatten_nil, List.append_nil, List.cons_append, List.nil_append]
    after_results_simp
    rfl
  rw [e1]
  have hk := k.isLt
  have he := e.isLt
  show (((IntOp.cmpi .eq
      (broadcastInDim S512x8 ![0, 1] Gen.bcast_S512x1_S512x8_0_1
        (broadcastInDim S512x1 ![0] Gen.bcast_S512_S512x1_0 floorDiv64) (ix2 k e))
      (broadcastInDim S512x8 ![0, 1] Gen.bcast_S1x8_S512x8_0_1
        (broadcastInDim S1x8 ![1] Gen.bcast_S8_S1x8_1 (iotaInDim S8 32 0)) (ix2 k e))).toNat : ℝ) : EReal) = _
  rw [bcast_down_rows_apply, bcast_along_cols_apply, floorDiv64_apply, floorWord_ofNat k.val hk]
  refine uitofp_bit _ _ ?_
  show IntOp.cmpi .eq (BitVec.ofNat 32 (k.val / 64)) (BitVec.ofNat 32 e.val) = 1#1 ↔ _
  rw [StableHlo.Predicate.cmpi_eq_iff, ofNat32_eq_iff _ _ (by omega) (by omega)]

end Cert.KernelIdeal.HostSide

end
-- ==== Proof.KerValue.lean ====
/-
  The kernel's result array, whole: the 64 grid points each write back one block of 256 rows, block `t` is the
  specification restricted to rows `256 t … 256 t + 255` (every window but the rows' and the output's is the whole
  array at every point), and the blocks tile the 16384 rows; so after the run the array is the specification of the
  argument arrays.
-/
import proofs.«114899_j29583734734870_1_alg».proof.Proof.Gen.KernelIdeal.Value
import proofs.«114899_j29583734734870_1_alg».proof.Proof.SpecArr
import proofs.«114899_j29583734734870_1_alg».proof.Proof.KerBlock
import proofs.«114899_j29583734734870_1_alg».proof.Proof.KerHost
import Idealize.ShloMosaic.Lib.ValueIdx
import Idealize.ShloMosaic.Lib.Pipeline.Value

noncomputable section

namespace Cert.KernelIdeal.Final

open Cert.KernelIdeal Cert.KernelIdeal.Gen Cert.KernelIdeal.Facts₀ Idealize.ShloMosaic Idealize.ShloMosaic.TcCoe Idealize.SL.Sem
open Idealize.ShloMosaic.Pipeline (Dat)
open Idealize.ShloMosaic.ValueIdx Cert.CrossMix Cert.KernelIdeal.Row Cert.KernelIdeal.HostSide

variable (m : (ℓ : Loc nD τ sig) → Buf (Elt Ideal) ℓ) (ρ : Dev nD → PrngReg)

/-- The printed index maps, decided over the 64 grid points: the input rows and the output move with the point along
    axis 0, every other block index is 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := t.isLt

/-- Row `p` of point `t`'s block is row `256 t + p` of the array. -/
abbrev rowOf (t : Fin cfg0.N) (p : Fin 256) : Fin 16384 := ⟨256 * t.val + p.val, by have := t_lt t; have := p.isLt; omega⟩

/-! ## The input windows' blocks, read at an index -/

theorem iblk0_apply (c : Dev nD) (t : Fin cfg0.N) (p : Fin 256) (d : Fin 2048) :
    (iblk m c 0 t : S256x2048.Idx → EReal) (ix2 p d)
      = (m ((c : Thread nD τ).loc main_arg0) : S16384x2048.Idx → EReal) (ix2 (rowOf t p) d) := by
  obtain ⟨e0, e1, -⟩ := idx_facts t
  show V m c main_arg0 (((cfg0.win 0).blk t).view.emb (ix2 p d)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 2048 + 1 * d.val = d.val; omega

theorem iblk1_apply (c : Dev nD) (t : Fin cfg0.N) (l : Fin 3) (d : Fin 2048) (k : Fin 512) :
    (iblk m c 1 t : S3x2048x512.Idx → EReal) (ix3 l d k) = (V m c main_v2 : S3x2048x512.Idx → EReal) (ix3 l d k) := by
  obtain ⟨-, -, e0, e1, e2, -⟩ := idx_facts t
  show V m c main_v2 (((cfg0.win 1).blk t).view.emb (ix3 l d k)) = _
  refine congrArg _ (funext fun a => Fin.ext ?_)
  match a with
  | ⟨0, _⟩ => show win0_1.index t (0 : Fin 3) * 3 + 1 * l.val = l.val; omega
  | ⟨1, _⟩ => show win0_1.index t (1 : Fin 3) * 2048 + 1 * d.val = d.val; omega
  | ⟨2, _⟩ => show win0_1.index t (2 : Fin 3) * 512 + 1 * k.val = k.val; omega

theorem iblk2_apply (c : Dev nD) (t : Fin cfg0.N) (l : Fin 3) (d : Fin 2048) (k : Fin 512) :
    (iblk m c 2 t : S3x2048x512.Idx → EReal) (ix3 l d k) = (V m c main_v5 : S3x2048x512.Idx → EReal) (ix3 l d k) := by
  obtain ⟨-, -, -, -, -, e0, e1, e2, -⟩ := idx_facts t
  show V m c main_v5 (((cfg0.win 2).blk t).view.emb (ix3 l d k)) = _
  refine congrArg _ (funext fun a => Fin.ext ?_)
  match a with
  | ⟨0, _⟩ => show win0_2.index t (0 : Fin 3) * 3 + 1 * l.val = l.val; omega
  | ⟨1, _⟩ => show win0_2.index t (1 : Fin 3) * 2048 + 1 * d.val = d.val; omega
  | ⟨2, _⟩ => show win0_2.index t (2 : Fin 3) * 512 + 1 * k.val = k.val; omega

theorem iblk3_apply (c : Dev nD) (t : Fin cfg0.N) (l : Fin 3) (d : Fin 2048) (e : Fin 8) :
    (iblk m c 3 t : S3x2048x8.Idx → EReal) (ix3 l d e) = (V m c main_v7 : S3x2048x8.Idx → EReal) (ix3 l d e) := by
  obtain ⟨-, -, -, -, -, -, -, -, e0, e1, e2, -⟩ := idx_facts t
  show V m c main_v7 (((cfg0.win 3).blk t).view.emb (ix3 l d e)) = _
  refine congrArg _ (funext fun a => Fin.ext ?_)
  match a with
  | ⟨0, _⟩ => show win0_3.index t (0 : Fin 3) * 3 + 1 * l.val = l.val; omega
  | ⟨1, _⟩ => show win0_3.index t (1 : Fin 3) * 2048 + 1 * d.val = d.val; omega
  | ⟨2, _⟩ => show win0_3.index t (2 : Fin 3) * 8 + 1 * e.val = e.val; omega

theorem iblk4_apply (c : Dev nD) (t : Fin cfg0.N) (l : Fin 3) (e : Fin 8) :
    (iblk m c 4 t : S3x8.Idx → EReal) (ix2 l e) = (m ((c : Thread nD τ).loc main_arg4) : S3x8.Idx → EReal) (ix2 l e) := by
  obtain ⟨-, -, -, -, -, -, -, -, -, -, -, e0, e1, -⟩ := idx_facts t
  show V m c main_arg4 (((cfg0.win 4).blk t).view.emb (ix2 l e)) = _
  rw [V_main_arg4]
  refine congrArg _ (funext fun a => Fin.ext ?_)
  match a with
  | ⟨0, _⟩ => show win0_4.index t (0 : Fin 2) * 3 + 1 * l.val = l.val; omega
  | ⟨1, _⟩ => show win0_4.index t (1 : Fin 2) * 8 + 1 * e.val = e.val; omega

theorem iblk5_apply (c : Dev nD) (t : Fin cfg0.N) (k : Fin 512) (e : Fin 8) :
    (iblk m c 5 t : S512x8.Idx → EReal) (ix2 k e) = (V m c main_v16 : S512x8.Idx → EReal) (ix2 k e) := by
  obtain ⟨-, -, -, -, -, -, -, -, -, -, -, -, -, e0, e1, -⟩ := idx_facts t
  show V m c main_v16 (((cfg0.win 5).blk t).view.emb (ix2 k e)) = _
  refine congrArg _ (funext fun a => Fin.ext ?_)
  match a with
  | ⟨0, _⟩ => show win0_5.index t (0 : Fin 2) * 512 + 1 * k.val = k.val; omega
  | ⟨1, _⟩ => show win0_5.index t (1 : Fin 2) * 8 + 1 * e.val = e.val; omega

/-- The specification of the arrays the run was launched with. -/
abbrev Gm (c : Dev nD) : S16384x2048.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the specification. -/
theorem flushed_eq (c : Dev nD) (t : Fin cfg0.N) :
    (dats m 0 c).flushed 6 t = ((cfg0.win 6).blk t).view.read (Elt Ideal) (Gm m c) := by
  rw [Cert.KernelIdeal.Value.flushed6]
  funext j
  obtain ⟨p, q, rfl⟩ : ∃ (p : Fin 256) (q : Fin 2048), j = ix2 p q := ⟨j 0, j 1, eq_ix2 j⟩
  show out0_6 (iblk m c 0 t) (iblk m c 1 t) (iblk m c 2 t) (iblk m c 3 t) (iblk m c 4 t) (iblk m c 5 t) (ix2 p q)
    = Gm m c (((cfg0.win 6).blk t).view.emb (ix2 p q))
  have hemb : ((cfg0.win 6).blk t).view.emb (ix2 p q) = ix2 (rowOf t p) q := by
    obtain ⟨-, -, -, -, -, -, -, -, -, -, -, -, -, -, -, e0, e1⟩ := idx_facts t
    refine funext fun a => Fin.ext ?_
    match a with
    | ⟨0, _⟩ => show win0_6.index t (0 : Fin 2) * 256 + 1 * p.val = 256 * t.val + p.val; omega
    | ⟨1, _⟩ => show win0_6.index t (1 : Fin 2) * 2048 + 1 * q.val = q.val; omega
  rw [hemb]
  refine (out_apply (iblk m c 0 t) (iblk m c 1 t) (iblk m c 2 t) (iblk m c 3 t) (iblk m c 4 t) (iblk m c 5 t)
    (fun k e => (iblk5_apply m c t k e).trans (V_sel m c k e)) p q).trans ?_
  have h1 : (fun (l : Fin 3) (e : Fin 8) (r : Fin 64) (d : Fin 2048) => (iblk m c 1 t : S3x2048x512.Idx → EReal) (ix3 l d (col e r)))
      = fun l e r d => (m ((c : Thread nD τ).loc main_arg1) : S3x8x64x2048.Idx → EReal) (ix4 l e r d) := by
    funext l e r d; exact (iblk1_apply m c t l d (col e r)).trans (V_u m c l d e r)
  have h2 : (fun (l : Fin 3) (e : Fin 8) (r : Fin 64) (d : Fin 2048) => (iblk m c 2 t : S3x2048x512.Idx → EReal) (ix3 l d (col e r)))
      = fun l e r d => (m ((c : Thread nD τ).loc main_arg2) : S3x8x64x2048.Idx → EReal) (ix4 l e r d) := by
    funext l e r d; exact (iblk2_apply m c t l d (col e r)).trans (V_v m c l d e r)
  have h3 : (fun (l : Fin 3) (e : Fin 8) (d : Fin 2048) => (iblk m c 3 t : S3x2048x8.Idx → EReal) (ix3 l d e))
      = fun l e d => (m ((c : Thread nD τ).loc main_arg3) : S3x8x2048.Idx → EReal) (ix3 l e d) := by
    funext l e d; exact (iblk3_apply m c t l d e).trans (V_wg m c l d e)
  have h4 : (fun (l : Fin 3) (e : Fin 8) => (iblk m c 4 t : S3x8.Idx → EReal) (ix2 l e))
      = fun l e => (m ((c : Thread nD τ).loc main_arg4) : S3x8.Idx → EReal) (ix2 l e) := by
    funext l e; exact iblk4_apply m c t l e
  have h0 : (fun d : Fin 2048 => (iblk m c 0 t : S256x2048.Idx → EReal) (ix2 p d))
      = fun d => (m ((c : Thread nD τ).loc main_arg0) : S16384x2048.Idx → EReal) (ix2 (rowOf t p) d) := by
    funext d; exact iblk0_apply m c t p d
  rw [h0, h1, h2, h3, h4]
  rfl

/-- An index of the array is in point `t`'s block iff each coordinate is in the block's range on its axis. -/
theorem mem_blk (t : Fin cfg0.N) (i : S16384x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v17).slice (win0_6.rect t)).set ↔ _
  rw [View.set_slice_whole, Rect.mem_set_unit]
  exact Iff.rfl

/-- The 64 blocks of 256 rows tile the 16384 rows: row `r` is in block `r / 256`. -/
theorem cover (i : S16384x2048.Idx) : ∃ t : Fin cfg0.N, (cfg0.win 6).flush t = true ∧ i ∈ ((cfg0.win 6).blk t).view.set := by
  have hi0 : (i 0).val < 16384 := (i 0).isLt
  have hi1 : (i 1).val < 2048 := (i 1).isLt
  have ht : (i 0).val / 256 < cfg0.N := by show _ < 64; omega
  refine ⟨⟨(i 0).val / 256, ht⟩, flush0_6 _, ?_⟩
  obtain ⟨-, -, -, -, -, -, -, -, -, -, -, -, -, -, -, e0, e1⟩ := idx_facts ⟨(i 0).val / 256, ht⟩
  rw [mem_blk]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, ht⟩ (1 : Fin 2) * 2048 ≤ (i 1).val ∧ (i 1).val < win0_6.index ⟨(i 0).val / 256, ht⟩ (1 : Fin 2) * 2048 + 2048
    rw [e1]; omega

/-- THE ARRAY after the run is the specification of the arguments. -/
theorem final (c : Dev nD) : (dats m 0 c).arrAt 6 cfg0.N = Gm m c :=
  (dats m 0 c).arrAt_eq_of_cover 6 (Gm m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v17) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Final

end
-- ==== Proof.RefDefs.lean ====
/-
  One layer of the reference on the whole [16384, 2048] array, named once.

  The reference's three layers are the same composition of host operations over different slices of the weights.
  Here that composition is named (`refLogits`, `refExps`, `refGate`, `refExpert`, `refXW`, `refLayer`) over a layer's slices.
-/
import proofs.«114899_j29583734734870_1_alg».proof.Proof.Gen.ReferenceIdeal
import proofs.«114899_j29583734734870_1_alg».proof.Proof.Spec

noncomputable section

namespace Cert.ReferenceIdeal.Layer

open Cert.ReferenceIdeal Cert.ReferenceIdeal.Facts₀ Idealize.ShloMosaic

/-- The gate logits: the [16384, 2048] × [8, 2048] contraction over the columns plus the bias row. -/
def refLogits (xi : FVec Ideal S16384x2048 .f32) (wg : FVec Ideal S1x8x2048 .f32) (bg : FVec Ideal S1x8 .f32) : FVec Ideal S16384x8 .f32 :=
  addf (Host.dotGeneral dot_S16384x2048_S8x2048_S16384x8_1_1_0_0_n_n none xi (shapeCast S8x2048 wg shapeCasts_S1x8x2048_S8x2048))
    (broadcastInDim S16384x8 ![0, 1] bcast_S1x8_S16384x8_0_1 (broadcastInDim S1x8 ![1] bcast_S8_S1x8_1 (shapeCast S8 bg shapeCasts_S1x8_S8)))

/-- The exponentials of the logits less their row maximum. -/
def refExps (lg : FVec Ideal S16384x8 .f32) : FVec Ideal S16384x8 .f32 :=
  Host.exp (subf lg (broadcastInDim S16384x8 ![0, 1] bcast_S16384x1_S16384x8_0_1 (broadcastInDim S16384x1 ![0] bcast_S16384_S16384x1_0 (maximumf (broadcastInDim S16384 ![] bcast_S_S16384 (constant S_ .f32 0xFF800000#32)) (Host.reduce FloatOps.maximumf lg (constant S_ .f32 0xFF800000#32) reducesTo_S16384x8_S16384_d1 h_S_)))))

/-- The row-wise softmax: the exponentials over their row sums. -/
def refGate (lg : FVec Ideal S16384x8 .f32) : FVec Ideal S16384x8 .f32 :=
  Host.divf (refExps lg) (broadcastInDim S16384x8 ![0, 1] bcast_S16384x1_S16384x8_0_1 (broadcastInDim S16384x1 ![0] bcast_S16384_S16384x1_0 (Host.reduceAdd (refExps lg) (constant S_ .f32 0x00000000#32) reducesTo_S16384x8_S16384_d1 h_S_)))

/-- The experts' bilinear forms: the two [16384, 8, 64] contractions multiplied entrywise and summed over the rank axis. -/
def refExpert (xi : FVec Ideal S16384x2048 .f32) (u v : FVec Ideal S1x8x64x2048 .f32) : FVec Ideal S16384x8 .f32 :=
  Host.reduceAdd (mulf (Host.dotGeneral dot_S16384x2048_S8x64x2048_S16384x8x64_1_2_0_01_n_n none xi (shapeCast S8x64x2048 u shapeCasts_S1x8x64x2048_S8x64x2048)) (Host.dotGeneral dot_S16384x2048_S8x64x2048_S16384x8x64_1_2_0_01_n_n none xi (shapeCast S8x64x2048 v shapeCasts_S1x8x64x2048_S8x64x2048))) (constant S_ .f32 0x00000000#32) reducesTo_S16384x8x64_S16384x8_d2 h_S_

/-- The layer's scalar per row: experts times gate, summed over the eight experts. -/
def refXW (xi : FVec Ideal S16384x2048 .f32) (wg : FVec Ideal S1x8x2048 .f32) (bg : FVec Ideal S1x8 .f32)
    (u v : FVec Ideal S1x8x64x2048 .f32) : FVec Ideal S16384 .f32 :=
  Host.reduceAdd (mulf (refExpert xi u v) (refGate (refLogits xi wg bg))) (constant S_ .f32 0x00000000#32) reducesTo_S16384x8_S16384_d1 h_S_

/-- The layer: the residual update with the row scalar broadcast along the rows. -/
def refLayer (x0 xi : FVec Ideal S16384x2048 .f32) (wg : FVec Ideal S1x8x2048 .f32) (bg : FVec Ideal S1x8 .f32)
    (u v : FVec Ideal S1x8x64x2048 .f32) : FVec Ideal S16384x2048 .f32 :=
  addf xi (mulf x0 (broadcastInDim S16384x2048 ![0, 1] bcast_S16384x1_S16384x2048_0_1 (broadcastInDim S16384x1 ![0] bcast_S16384_S16384x1_0 (refXW xi wg bg u v))))

end Cert.ReferenceIdeal.Layer

end
-- ==== Proof.RefGate.lean ====
/-
  The gate of one layer of the reference, read at a row: the logits are the row against the gate weights plus the bias,
  and the softmax of the [16384, 8] logits is, row by row, the softmax of the specification.
-/
import proofs.«114899_j29583734734870_1_alg».proof.Proof.RefDefs
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Layer

open Cert.ReferenceIdeal Cert.ReferenceIdeal.Facts₀ Idealize.ShloMosaic Idealize.ShloMosaic.ValueIdx Cert.CrossMix

/-! ## The logits -/

/-- The left operand's index of the gate contraction at result (b, e) and contraction coordinate c is (b, c). -/
private theorem gateDot_lhsIdx (b : Fin 16384) (e : Fin 8) (c : Fin 2048) :
    dot_S16384x2048_S8x2048_S16384x8_1_1_0_0_n_n.lhsIdx (ix2 b e)
      ((contrEquiv1 dot_S16384x2048_S8x2048_S16384x8_1_1_0_0_n_n 2048 rfl rfl).symm c) = ix2 b c := by
  have c2 := contrEquiv1_symm_val dot_S16384x2048_S8x2048_S16384x8_1_1_0_0_n_n 2048 rfl rfl c
  funext ax; apply Fin.ext
  match ax with
  | ⟨0, _⟩ => simp [DotDims.lhsIdx, dot_S16384x2048_S8x2048_S16384x8_1_1_0_0_n_n]; rfl
  | ⟨1, _⟩ => simp [DotDims.lhsIdx, dot_S16384x2048_S8x2048_S16384x8_1_1_0_0_n_n]; exact c2

/-- The right operand's index there is (e, c): the weights are contracted along their columns too. -/
private theorem gateDot_rhsIdx (b : Fin 16384) (e : Fin 8) (c : Fin 2048) :
    dot_S16384x2048_S8x2048_S16384x8_1_1_0_0_n_n.rhsIdx (ix2 b e)
      ((contrEquiv1 dot_S16384x2048_S8x2048_S16384x8_1_1_0_0_n_n 2048 rfl rfl).symm c) = ix2 e c := by
  have c2 := contrEquiv1_symm_val dot_S16384x2048_S8x2048_S16384x8_1_1_0_0_n_n 2048 rfl rfl c
  funext ax; apply Fin.ext
  match ax with
  | ⟨0, _⟩ => simp [DotDims.rhsIdx, dot_S16384x2048_S8x2048_S16384x8_1_1_0_0_n_n]; rfl
  | ⟨1, _⟩ => simp [DotDims.rhsIdx, dot_S16384x2048_S8x2048_S16384x8_1_1_0_0_n_n]; exact c2

/-- The logits at (b, e): row b against row e of the [8, 2048] weights, plus the bias entry. -/
theorem refLogits_apply (xi : FVec Ideal S16384x2048 .f32) (wg : FVec Ideal S1x8x2048 .f32) (bg : FVec Ideal S1x8 .f32) (b : Fin 16384) (e : Fin 8) :
    refLogits xi wg bg (ix2 b e) = (∑ d : Fin 2048, xi (ix2 b d) * wg (ix3 0 e d)) + bg (ix2 0 e) := by
  unfold refLogits
  rw [addf_apply]
  congr 1
  · -- the contraction: a sum over the one contracted coordinate, the weights read through the dropped unit axis
    show FloatOps.dotGeneral _ none _ xi _ (ix2 b e) = _
    rw [Ideal.dotGeneral_apply, ← Equiv.sum_comp (contrEquiv1 dot_S16384x2048_S8x2048_S16384x8_1_1_0_0_n_n 2048 rfl rfl).symm]
    refine Finset.sum_congr rfl fun c _ => ?_
    rw [gateDot_lhsIdx, gateDot_rhsIdx, shapeCast_1ab_ab_apply]
  · -- the bias: [1, 8] to [8], back to [1, 8], then down the 16384 rows; at (b, e) it is the entry (0, e)
    rw [broadcastInDim_apply _ _ _ (ix2 b e) (ix2 (0 : Fin 1) e) (by
        intro a; match a with
        | ⟨0, _⟩ => rfl
        | ⟨1, _⟩ => rfl)]
    rw [broadcastInDim_apply _ _ _ (ix2 (0 : Fin 1) e) (ix1 e) (by
        intro a; match a with
        | ⟨0, _⟩ => rfl)]
    rw [shapeCast_1a_a_apply]

/-! ## The softmax -/

/-- The reduced index `b` with column `k` put back on the dropped axis is (b, k). -/
private theorem lift_row (h : S16384x8.Reduces [1] S16384) (b : Fin 16384) (k : Fin 8) :
    h.lift (ix1 b) k = ix2 b k := by
  funext c; apply Fin.ext
  match c with
  | ⟨0, _⟩ => rfl
  | ⟨1, _⟩ => rfl

/-- The host's exponential at an index is the ideal exponential of the element. -/
private theorem hostExp_apply {s : Shape} {φ : FTy} (x : FVec Ideal s φ) (i : s.Idx) : Host.exp x i = Ideal.exp (x i) := rfl

/-- A [16384] vector broadcast to [16384, 1] and then along the rows to [16384, 8] reads, at (b, e), its entry b. -/
private theorem bcastRows_apply {α : Type} (v : S16384.Idx → α) (b : Fin 16384) (e : Fin 8) :
    broadcastInDim S16384x8 ![0, 1] bcast_S16384x1_S16384x8_0_1 (broadcastInDim S16384x1 ![0] bcast_S16384_S16384x1_0 v) (ix2 b e) = v (ix1 b) := by
  rw [broadcastInDim_apply _ _ _ (ix2 b e) (ix2 b (0 : Fin 1)) (by
        intro a; match a with
        | ⟨0, _⟩ => rfl
        | ⟨1, _⟩ => rfl)]
  rw [broadcastInDim_apply _ _ _ (ix2 b (0 : Fin 1)) (ix1 b) (by
        intro a; match a with
        | ⟨0, _⟩ => rfl)]

/-- The host's maximum over the columns from `-∞`, at row b: the fold of `max` from `-∞` over the row's eight entries. -/
private theorem hostRowMax_apply (lg : FVec Ideal S16384x8 .f32) (b : Fin 16384) :
    Host.reduce FloatOps.maximumf lg (constant (F := Ideal) S_ .f32 0xFF800000#32) reducesTo_S16384x8_S16384_d1 h_S_ (ix1 b)
      = (Finset.univ : Finset (Fin 8)).fold max negInf (fun e' => lg (ix2 b e')) := by
  have h : S16384x8.Reduces [1] S16384 := by decide
  rw [Host.reduce_eq_fold_single FloatOps.maximumf lg _ reducesTo_S16384x8_S16384_d1 h h_S_]
  have hf : (lg ∘ h.lift (ix1 b)) = fun k : Fin 8 => lg (ix2 b k) := funext fun k => congrArg lg (lift_row h b k)
  rw [hf]
  rfl

/-- The exponentials at (b, e): the logit less the row's maximum (from `-∞`, and once more against `-∞`), exponentiated. -/
theorem refExps_apply (lg : FVec Ideal S16384x8 .f32) (b : Fin 16384) (e : Fin 8) :
    refExps lg (ix2 b e) = Ideal.exp (lg (ix2 b e) - max negInf ((Finset.univ : Finset (Fin 8)).fold max negInf (fun e' => lg (ix2 b e')))) := by
  unfold refExps
  rw [hostExp_apply, subf_apply, bcastRows_apply, maximumf_apply, broadcastInDim_scalar_apply, constant_apply, hostRowMax_apply]

/-- The softmax at (b, e) is the specification's softmax of row b's eight logits. -/
theorem refGate_apply (lg : FVec Ideal S16384x8 .f32) (b : Fin 16384) (e : Fin 8) :
    refGate lg (ix2 b e) = gateRow (fun e' => lg (ix2 b e')) e := by
  have h : S16384x8.Reduces [1] S16384 := by decide
  unfold refGate gateRow
  -- the quotient at (b, e); its denominator is the row sum from zero, read through the two broadcasts
  rw [hostDivf_apply, bcastRows_apply, hostReduceAdd_apply, Ideal.hostReduceAdd_single reducesTo_S16384x8_S16384_d1 h, constant_apply,
    Ideal.ofBits_zero_f32, zero_add, refExps_apply]
  congr 1
  refine Finset.sum_congr rfl fun k _ => ?_
  rw [lift_row h b k]
  exact refExps_apply lg b k

end Cert.ReferenceIdeal.Layer

end
-- ==== Proof.RefExpert.lean ====
/-
  The experts' bilinear forms of one layer of the reference, read at a row: entry (b, e) is the sum over the 64 ranks of the
  product of row b against `u (e, r, ·)` and row b against `v (e, r, ·)`.
-/
import proofs.«114899_j29583734734870_1_alg».proof.Proof.RefDefs
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layer

open Cert.ReferenceIdeal Cert.ReferenceIdeal.Facts₀ Idealize.ShloMosaic Idealize.ShloMosaic.ValueIdx Cert.CrossMix

/-! ### The contraction's operand indices, coordinate by coordinate

At output index `j = (b, e, r)` and contraction position `k`, the left operand is read at `(b, k)` and the right
operand at `(e, r, k)`. -/

theorem expertDot_lhs_row (j : S16384x8x64.Idx) (k : dot_S16384x2048_S8x64x2048_S16384x8x64_1_2_0_01_n_n.contr.Idx) :
    (dot_S16384x2048_S8x64x2048_S16384x8x64_1_2_0_01_n_n.lhsIdx j k 0 : ℕ) = j 0 := by
  simp [DotDims.lhsIdx, dot_S16384x2048_S8x64x2048_S16384x8x64_1_2_0_01_n_n]; rfl

theorem expertDot_lhs_col (j : S16384x8x64.Idx) (k : dot_S16384x2048_S8x64x2048_S16384x8x64_1_2_0_01_n_n.contr.Idx) :
    (dot_S16384x2048_S8x64x2048_S16384x8x64_1_2_0_01_n_n.lhsIdx j k 1 : ℕ) = k ⟨0, by decide⟩ := by
  simp [DotDims.lhsIdx, dot_S16384x2048_S8x64x2048_S16384x8x64_1_2_0_01_n_n]; rfl

theorem expertDot_rhs_expert (j : S16384x8x64.Idx) (k : dot_S16384x2048_S8x64x2048_S16384x8x64_1_2_0_01_n_n.contr.Idx) :
    (dot_S16384x2048_S8x64x2048_S16384x8x64_1_2_0_01_n_n.rhsIdx j k 0 : ℕ) = j 1 := by
  simp [DotDims.rhsIdx, dot_S16384x2048_S8x64x2048_S16384x8x64_1_2_0_01_n_n]; rfl

theorem expertDot_rhs_rank (j : S16384x8x64.Idx) (k : dot_S16384x2048_S8x64x2048_S16384x8x64_1_2_0_01_n_n.contr.Idx) :
    (dot_S16384x2048_S8x64x2048_S16384x8x64_1_2_0_01_n_n.rhsIdx j k 1 : ℕ) = j 2 := by
  simp [DotDims.rhsIdx, dot_S16384x2048_S8x64x2048_S16384x8x64_1_2_0_01_n_n]; rfl

theorem expertDot_rhs_col (j : S16384x8x64.Idx) (k : dot_S16384x2048_S8x64x2048_S16384x8x64_1_2_0_01_n_n.contr.Idx) :
    (dot_S16384x2048_S8x64x2048_S16384x8x64_1_2_0_01_n_n.rhsIdx j k 2 : ℕ) = k ⟨0, by decide⟩ := by
  simp [DotDims.rhsIdx, dot_S16384x2048_S8x64x2048_S16384x8x64_1_2_0_01_n_n]; rfl

/-- One contraction of the pair read at `(b, e, r)`: row `b` of the left operand against `w (0, e, r, ·)`, the sum
    over the contraction's one axis re-indexed by its coordinate. -/
theorem expertDot_apply (xi : FVec Ideal S16384x2048 .f32) (w : FVec Ideal S1x8x64x2048 .f32)
    (b : Fin 16384) (e : Fin 8) (r : Fin 64) :
    Host.dotGeneral dot_S16384x2048_S8x64x2048_S16384x8x64_1_2_0_01_n_n none xi
        (shapeCast S8x64x2048 w shapeCasts_S1x8x64x2048_S8x64x2048) (ix3 b e r)
      = ∑ d : Fin 2048, xi (ix2 b d) * w (ix4 0 e r d) := by
  simp only [Host.dotGeneral]
  rw [Ideal.dotGeneral_apply,
    ← Equiv.sum_comp (contrEquiv1 dot_S16384x2048_S8x64x2048_S16384x8x64_1_2_0_01_n_n 2048 rfl rfl).symm]
  refine Finset.sum_congr rfl fun d _ => ?_
  have hl : dot_S16384x2048_S8x64x2048_S16384x8x64_1_2_0_01_n_n.lhsIdx (ix3 b e r)
      ((contrEquiv1 dot_S16384x2048_S8x64x2048_S16384x8x64_1_2_0_01_n_n 2048 rfl rfl).symm d) = ix2 b d := by
    funext a
    match a with
    | ⟨0, _⟩ => exact Fin.ext (expertDot_lhs_row _ _)
    | ⟨1, _⟩ => exact Fin.ext ((expertDot_lhs_col _ _).trans (contrEquiv1_symm_val _ _ _ _ d))
  have hr : dot_S16384x2048_S8x64x2048_S16384x8x64_1_2_0_01_n_n.rhsIdx (ix3 b e r)
      ((contrEquiv1 dot_S16384x2048_S8x64x2048_S16384x8x64_1_2_0_01_n_n 2048 rfl rfl).symm d) = ix3 e r d := by
    funext a
    match a with
    | ⟨0, _⟩ => exact Fin.ext (expertDot_rhs_expert _ _)
    | ⟨1, _⟩ => exact Fin.ext (expertDot_rhs_rank _ _)
    | ⟨2, _⟩ => exact Fin.ext ((expertDot_rhs_col _ _).trans (contrEquiv1_symm_val _ _ _ _ d))
  rw [hl, hr, shapeCast_1abc_abc_apply]

/-- The rank axis is the one the sum drops: `[16384, 8, 64]` reduces over axis 2 to `[16384, 8]`. -/
theorem rankReduces : S16384x8x64.Reduces [2] S16384x8 := by decide

/-- Over the result index `(b, e)`, the source index with `r` inserted on the rank axis is `(b, e, r)`. -/
theorem rankLift_eq (h : S16384x8x64.Reduces [2] S16384x8) (b : Fin 16384) (e : Fin 8) (r : Fin 64) :
    h.lift (ix2 b e) r = ix3 b e r := by
  funext a
  match a with
  | ⟨0, _⟩ => exact Fin.ext rfl
  | ⟨1, _⟩ => exact Fin.ext rfl
  | ⟨2, _⟩ => exact Fin.ext rfl

/-- The experts' forms at (b, e). -/
theorem refExpert_apply (xi : FVec Ideal S16384x2048 .f32) (u v : FVec Ideal S1x8x64x2048 .f32) (b : Fin 16384) (e : Fin 8) :
    refExpert xi u v (ix2 b e)
      = ∑ r : Fin 64, (∑ d : Fin 2048, xi (ix2 b d) * u (ix4 0 e r d)) * (∑ d : Fin 2048, xi (ix2 b d) * v (ix4 0 e r d)) := by
  unfold refExpert
  show Ideal.hostReduceAdd reducesTo_S16384x8x64_S16384x8_d2 _ _ (ix2 b e) = _
  rw [Ideal.hostReduceAdd_single reducesTo_S16384x8x64_S16384x8_d2 rankReduces]
  refine (congrArg (· + _) Ideal.ofBits_zero_f32).trans ((zero_add _).trans (Finset.sum_congr rfl fun (r : Fin 64) _ => ?_))
  rw [rankLift_eq rankReduces b e r, mulf_apply, expertDot_apply, expertDot_apply]

end Cert.ReferenceIdeal.Layer

end
-- ==== Proof.RefLayer.lean ====
/-
  One layer of the reference read row by row: row `b` of the layer's result is the row step of the specification, of
  row `b` of the input, row `b` of the current array and the slices' entries.
-/
import proofs.«114899_j29583734734870_1_alg».proof.Proof.RefGate
import proofs.«114899_j29583734734870_1_alg».proof.Proof.RefExpert

noncomputable section

namespace Cert.ReferenceIdeal.Layer

open Cert.ReferenceIdeal Cert.ReferenceIdeal.Facts₀ Idealize.ShloMosaic Idealize.ShloMosaic.ValueIdx Cert.CrossMix

/-- The layer's scalar at row `b`. -/
theorem refXW_apply (xi : FVec Ideal S16384x2048 .f32) (wg : FVec Ideal S1x8x2048 .f32) (bg : FVec Ideal S1x8 .f32)
    (u v : FVec Ideal S1x8x64x2048 .f32) (b : Fin 16384) :
    refXW xi wg bg u v (ix1 b)
      = xwRow (fun e d => wg (ix3 0 e d)) (fun e => bg (ix2 0 e)) (fun e r d => u (ix4 0 e r d)) (fun e r d => v (ix4 0 e r d))
          (fun d => xi (ix2 b d)) := by
  have hred : S16384x8.Reduces [1] S16384 := by decide
  have hl : ∀ k : Fin 8, hred.lift (ix1 b) k = ix2 b k := fun k =>
    funext fun a => Fin.ext (by match a with | ⟨0, _⟩ => rfl | ⟨1, _⟩ => rfl)
  unfold refXW xwRow
  refine (Ideal.hostReduceAdd_single reducesTo_S16384x8_S16384_d1 hred _ _ (ix1 b)).trans ?_
  rw [show (constant S_ .f32 0x00000000#32 : FVec Ideal S_ .f32) (Shape.Idx.first h_S_) = 0 from Ideal.ofBits_zero_f32, zero_add]
  refine Finset.sum_congr rfl fun k _ => ?_
  rw [hl k]
  show refExpert xi u v (ix2 b k) * refGate (refLogits xi wg bg) (ix2 b k) = _
  rw [refExpert_apply xi u v b k, refGate_apply (refLogits xi wg bg) b k]
  congr 2
  funext e'
  exact refLogits_apply xi wg bg b e'

/-- The layer at (b, d) is the row step of the specification on row `b`. -/
theorem refLayer_apply (x0 xi : FVec Ideal S16384x2048 .f32) (wg : FVec Ideal S1x8x2048 .f32) (bg : FVec Ideal S1x8 .f32)
    (u v : FVec Ideal S1x8x64x2048 .f32) (b : Fin 16384) (d : Fin 2048) :
    refLayer x0 xi wg bg u v (ix2 b d)
      = stepRow (fun e d => wg (ix3 0 e d)) (fun e => bg (ix2 0 e)) (fun e r d => u (ix4 0 e r d)) (fun e r d => v (ix4 0 e r d))
          (fun d => x0 (ix2 b d)) (fun d => xi (ix2 b d)) d := by
  unfold refLayer stepRow
  show xi (ix2 b d) + x0 (ix2 b d) * (broadcastInDim S16384x2048 ![0, 1] bcast_S16384x1_S16384x2048_0_1
    (broadcastInDim S16384x1 ![0] bcast_S16384_S16384x1_0 (refXW xi wg bg u v))) (ix2 b d) = _
  rw [broadcastInDim_apply ![0, 1] bcast_S16384x1_S16384x2048_0_1 _ (ix2 b d) (ix2 b (0 : Fin 1))
      (by intro a; match a with | ⟨0, _⟩ => rfl | ⟨1, _⟩ => rfl),
    broadcastInDim_apply ![0] bcast_S16384_S16384x1_0 _ (ix2 b (0 : Fin 1)) (ix1 b)
      (by intro a; match a with | ⟨0, _⟩ => rfl),
    refXW_apply xi wg bg u v b]

end Cert.ReferenceIdeal.Layer

end
-- ==== Proof.RefRun.lean ====
/-
  The reference's result array, whole: its run ends with the result at three layers composed, layer `l` over the
  `l`-th slices of the weights; read row by row each layer is the row step of the specification, so the result is the
  specification of the argument arrays.
-/
import proofs.«114899_j29583734734870_1_alg».proof.Proof.Gen.ReferenceIdeal.Run
import proofs.«114899_j29583734734870_1_alg».proof.Proof.SpecArr
import proofs.«114899_j29583734734870_1_alg».proof.Proof.RefLayer
import Idealize.ShloMosaic.Lib.ValueIdx
import Idealize.ShloMosaic.Lib.Pipeline.Value

noncomputable section

namespace Cert.ReferenceIdeal.Final

open Cert.ReferenceIdeal Cert.ReferenceIdeal.Facts₀ Cert.ReferenceIdeal.Layer Idealize.ShloMosaic Idealize.ShloMosaic.TcCoe Idealize.SL.Sem
open Idealize.ShloMosaic.StableHlo Idealize.ShloMosaic.ValueIdx Cert.CrossMix

/-! ## A layer's slices of the weights, read at an index -/

theorem slice_wg (l : Fin 3) (a3 : FVec Ideal S3x8x2048 .f32) (h : S3x8x2048.Slices ![l.val, 0, 0] S1x8x2048) (e : Fin 8) (d : Fin 2048) :
    extractStridedSlice S1x8x2048 ![l.val, 0, 0] a3 h (ix3 0 e d) = a3 (ix3 l e d) :=
  extractStridedSlice_apply _ a3 h (ix3 0 e d) (ix3 l e d) (by
    intro a
    match a with
    | ⟨0, _⟩ => show l.val = l.val + 0; omega
    | ⟨1, _⟩ => show e.val = 0 + e.val; omega
    | ⟨2, _⟩ => show d.val = 0 + d.val; omega)

theorem slice_bg (l : Fin 3) (a4 : FVec Ideal S3x8 .f32) (h : S3x8.Slices ![l.val, 0] S1x8) (e : Fin 8) :
    extractStridedSlice S1x8 ![l.val, 0] a4 h (ix2 0 e) = a4 (ix2 l e) :=
  extractStridedSlice_apply _ a4 h (ix2 0 e) (ix2 l e) (by
    intro a
    match a with
    | ⟨0, _⟩ => show l.val = l.val + 0; omega
    | ⟨1, _⟩ => show e.val = 0 + e.val; omega)

theorem slice_uv (l : Fin 3) (a1 : FVec Ideal S3x8x64x2048 .f32) (h : S3x8x64x2048.Slices ![l.val, 0, 0, 0] S1x8x64x2048)
    (e : Fin 8) (r : Fin 64) (d : Fin 2048) :
    extractStridedSlice S1x8x64x2048 ![l.val, 0, 0, 0] a1 h (ix4 0 e r d) = a1 (ix4 l e r d) :=
  extractStridedSlice_apply _ a1 h (ix4 0 e r d) (ix4 l e r d) (by
    intro a
    match a with
    | ⟨0, _⟩ => show l.val = l.val + 0; omega
    | ⟨1, _⟩ => show e.val = 0 + e.val; omega
    | ⟨2, _⟩ => show r.val = 0 + r.val; omega
    | ⟨3, _⟩ => show d.val = 0 + d.val; omega)

/-- Layer `l` of the reference along row `b` is the row step of the specification with the `l`-th weights. -/
theorem layer_row (l : Fin 3) (a0 xi : FVec Ideal S16384x2048 .f32) (a1 a2 : FVec Ideal S3x8x64x2048 .f32) (a3 : FVec Ideal S3x8x2048 .f32)
    (a4 : FVec Ideal S3x8 .f32) (h3 : S3x8x2048.Slices ![l.val, 0, 0] S1x8x2048) (h4 : S3x8.Slices ![l.val, 0] S1x8)
    (h1 : S3x8x64x2048.Slices ![l.val, 0, 0, 0] S1x8x64x2048) (b : Fin 16384) :
    (fun d : Fin 2048 => refLayer a0 xi (extractStridedSlice S1x8x2048 ![l.val, 0, 0] a3 h3) (extractStridedSlice S1x8 ![l.val, 0] a4 h4)
        (extractStridedSlice S1x8x64x2048 ![l.val, 0, 0, 0] a1 h1) (extractStridedSlice S1x8x64x2048 ![l.val, 0, 0, 0] a2 h1) (ix2 b d))
      = stepRow (fun e d => a3 (ix3 l e d)) (fun e => a4 (ix2 l e)) (fun e r d => a1 (ix4 l e r d)) (fun e r d => a2 (ix4 l e r d))
          (fun d => a0 (ix2 b d)) (fun d => xi (ix2 b d)) := by
  funext d
  rw [refLayer_apply]
  simp only [slice_wg, slice_bg, slice_uv]

/-- Three layers of the reference over the three slices are the specification. -/
theorem layers_eq (a0 : FVec Ideal S16384x2048 .f32) (a1 a2 : FVec Ideal S3x8x64x2048 .f32) (a3 : FVec Ideal S3x8x2048 .f32) (a4 : FVec Ideal S3x8 .f32) :
    refLayer a0
        (refLayer a0
          (refLayer a0 a0 (extractStridedSlice S1x8x2048 ![0, 0, 0] a3 slices_S3x8x2048_S1x8x2048_0_0_0) (extractStridedSlice S1x8 ![0, 0] a4 slices_S3x8_S1x8_0_0)
            (extractStridedSlice S1x8x64x2048 ![0, 0, 0, 0] a1 slices_S3x8x64x2048_S1x8x64x2048_0_0_0_0) (extractStridedSlice S1x8x64x2048 ![0, 0, 0, 0] a2 slices_S3x8x64x2048_S1x8x64x2048_0_0_0_0))
          (extractStridedSlice S1x8x2048 ![1, 0, 0] a3 slices_S3x8x2048_S1x8x2048_1_0_0) (extractStridedSlice S1x8 ![1, 0] a4 slices_S3x8_S1x8_1_0)
          (extractStridedSlice S1x8x64x2048 ![1, 0, 0, 0] a1 slices_S3x8x64x2048_S1x8x64x2048_1_0_0_0) (extractStridedSlice S1x8x64x2048 ![1, 0, 0, 0] a2 slices_S3x8x64x2048_S1x8x64x2048_1_0_0_0))
        (extractStridedSlice S1x8x2048 ![2, 0, 0] a3 slices_S3x8x2048_S1x8x2048_2_0_0) (extractStridedSlice S1x8 ![2, 0] a4 slices_S3x8_S1x8_2_0)
        (extractStridedSlice S1x8x64x2048 ![2, 0, 0, 0] a1 slices_S3x8x64x2048_S1x8x64x2048_2_0_0_0) (extractStridedSlice S1x8x64x2048 ![2, 0, 0, 0] a2 slices_S3x8x64x2048_S1x8x64x2048_2_0_0_0)
      = G a0 a1 a2 a3 a4 := by
  funext i
  obtain ⟨b, d, rfl⟩ : ∃ (b : Fin 16384) (d : Fin 2048), i = ix2 b d := ⟨i 0, i 1, eq_ix2 i⟩
  rw [G_apply]
  unfold rows3
  have e0 := layer_row 0 a0 a0 a1 a2 a3 a4 slices_S3x8x2048_S1x8x2048_0_0_0 slices_S3x8_S1x8_0_0 slices_S3x8x64x2048_S1x8x64x2048_0_0_0_0 b
  have e1 := fun xi => layer_row 1 a0 xi a1 a2 a3 a4 slices_S3x8x2048_S1x8x2048_1_0_0 slices_S3x8_S1x8_1_0 slices_S3x8x64x2048_S1x8x64x2048_1_0_0_0 b
  have e2 := fun xi => layer_row 2 a0 xi a1 a2 a3 a4 slices_S3x8x2048_S1x8x2048_2_0_0 slices_S3x8_S1x8_2_0 slices_S3x8x64x2048_S1x8x64x2048_2_0_0_0 b
  refine (congrFun (e2 _) d).trans ?_
  exact congrArg (fun f => stepRow _ _ _ _ _ f d) ((e1 _).trans (congrArg (stepRow _ _ _ _ _) e0))

/-- The run, read: the result array at the specification of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans
      (layers_eq (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))), (h c).2⟩)
    (Cert.ReferenceIdeal.Value.run (F := Ideal) m ρ)

end Cert.ReferenceIdeal.Final

end
-- ==== Proof.lean ====
/-
  The certificate of the three-layer gated low-rank cross network: a Pallas kernel gridded over 64 blocks of 256 rows
  against its jnp reference, equal over the extended reals.

  Both programs send each row `x0` of the [16384, 2048] input through three layers `xi ↦ xi + x0 · xw`, where
  `xw = ∑ e, (∑ r, (xi · U e r) (xi · V e r)) · softmax (xi · Wg + bg) e` (Proof/Spec.lean).  The kernel differs from the
  reference in layout only: the weights are transposed on the host so that the products feed the matrix unit, the rows
  are processed in blocks, and the sum over the 64 ranks of an expert is a product with the 0/1 selector of the groups of
  64 among the 512 columns.  On the extended reals `a · 0 = 0` and `a · 1 = a` for every `a`, so the selector product is
  that sum and no finiteness of the inputs is used.

  The three frames are the generated ones (the reference's is its generated run with the result dropped); the ideal pass
  rewrote nothing, so `preserves` is trivial; `algebraic` sets the kernel's run (Proof/KerValue.lean) beside the
  reference's (Proof/RefRun.lean): both end with the result array at `Cert.CrossMix.G` of the argument arrays.
-/
import proofs.«114899_j29583734734870_1_alg».proof.Defs
import proofs.«114899_j29583734734870_1_alg».proof.Proof.Gen.Kernel
import proofs.«114899_j29583734734870_1_alg».proof.Proof.Gen.Kernel.Frame
import proofs.«114899_j29583734734870_1_alg».proof.Proof.Gen.KernelIdeal
import proofs.«114899_j29583734734870_1_alg».proof.Proof.Gen.KernelIdeal.Frame
import proofs.«114899_j29583734734870_1_alg».proof.Proof.Gen.KernelIdeal.Value
import proofs.«114899_j29583734734870_1_alg».proof.Proof.Gen.ReferenceIdeal
import proofs.«114899_j29583734734870_1_alg».proof.Proof.Gen.ReferenceIdeal.Run
import proofs.«114899_j29583734734870_1_alg».proof.Proof.Gen.Pre_finite_inputs
import proofs.«114899_j29583734734870_1_alg».proof.Proof.KerValue
import proofs.«114899_j29583734734870_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- Both runs end with the result at the specification of their arguments, and the arguments agree. -/
theorem algebraic : Cert.algebraic_KernelIdeal_ReferenceIdeal := by
  intro m ρ m' ρ' _ hagree
  refine ⟨fun c => Cert.KernelIdeal.Final.Gm m c, Cert.KernelIdeal.Final.run m ρ, ?_⟩
  refine (θ_run Cert.ReferenceIdeal.defs _ _).mono (fun _ h c => ⟨(h c).1.trans ?_, (h c).2⟩)
    (Cert.ReferenceIdeal.Final.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
